-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S256x256 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  main_v43

def fn_part1 {F : FTy → Type} [FloatOps F] (main_arg4 : FVec F S256x128 .f32) (main_arg5 : FVec F S128 .f32) (main_arg6 : FVec F S256x128 .f32) (main_arg7 : FVec F S128 .f32) (main_arg8 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_v33

def fn {F : FTy → Type} [FloatOps F] (main_arg0 : FVec F S50000x256 .f32) (main_arg1 : FVec F S50000x128 .f32) (main_arg2 : FVec F S256x256 .f32) (main_arg3 : FVec F S256 .f32) (main_arg4 : FVec F S256x128 .f32) (main_arg5 : FVec F S128 .f32) (main_arg6 : FVec F S256x128 .f32) (main_arg7 : FVec F S128 .f32) (main_arg8 : FVec F S256x256 .f32) (main_arg9 : IVec S800000 32) (main_arg10 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S50000x256 : Shape := ⟨2, ![50000, 256]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S1x128 : Shape := ⟨2, ![1, 128]⟩
abbrev S5000x256 : Shape := ⟨2, ![5000, 256]⟩
abbrev S5000x1 : Shape := ⟨2, ![5000, 1]⟩
abbrev S800000x256 : Shape := ⟨2, ![800000, 256]⟩
abbrev S5000x128 : Shape := ⟨2, ![5000, 128]⟩

abbrev nBuf : Space → Nat
  | .hbm => 73
  | .vmem => 38
  | .smem => 0
  | _ => 0

abbrev bufTy : (tb : Table) → Fin (tcTables nBuf tb) → BufTy
  | .hbm, ⟨0, _⟩ => ⟨S50000x256, .f32⟩
  | .hbm, ⟨1, _⟩ => ⟨S50000x128, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x1, .f32⟩
  | .hbm, ⟨35, _⟩ => ⟨S1x256, .f32⟩
  | .hbm, ⟨36, _⟩ => ⟨S1x128, .f32⟩
  | .hbm, ⟨37, _⟩ => ⟨S1x128, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S50000x256, .f32⟩
  | .hbm, ⟨53, _⟩ => ⟨S256x256, .f32⟩
  | .hbm, ⟨54, _⟩ => ⟨S50000x256, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x256, .f32⟩
  | .hbm, ⟨64, _⟩ => ⟨S_, .f32⟩
  | .hbm, ⟨65, _⟩ => ⟨S50000x256, .f32⟩
  | .hbm, ⟨66, _⟩ => ⟨S800000x1, .i32⟩
  | .hbm, ⟨67, _⟩ => ⟨S50000x256, .f32⟩
  | .hbm, ⟨68, _⟩ => ⟨S50000x128, .f32⟩
  | .hbm, ⟨69, _⟩ => ⟨S256x256, .f32⟩
  | .hbm, ⟨70, _⟩ => ⟨S_, .f32⟩
  | .hbm, ⟨71, _⟩ => ⟨S50000x1, .f32⟩
  | .hbm, ⟨72, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x1, .f32⟩
  | .local _ .vmem, ⟨17, _⟩ => ⟨S5000x1, .f32⟩
  | .local _ .vmem, ⟨18, _⟩ => ⟨S256x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x256, .f32⟩
  | .local _ .vmem, ⟨32, _⟩ => ⟨S5000x256, .f32⟩
  | .local _ .vmem, ⟨33, _⟩ => ⟨S5000x1, .f32⟩
  | .local _ .vmem, ⟨34, _⟩ => ⟨S5000x1, .f32⟩
  | .local _ .vmem, ⟨35, _⟩ => ⟨S256x256, .f32⟩
  | .local _ .vmem, ⟨36, _⟩ => ⟨S5000x256, .f32⟩
  | .local _ .vmem, ⟨37, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S256_S1x256 : S256.ShapeCasts S1x256
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S50000x256 : S_.BroadcastsInDim S50000x256 (![] : Fin 0 → Fin S50000x256.rank)
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  concatenates_S256x128_S256x128_S256x256_d1 : Shape.Concatenates [S256x128, S256x128] S256x256 1
  shapeCasts_S256x256_S256x256 : S256x256.ShapeCasts S256x256
  slices_S5000x256_o0_0_S5000x128 : S5000x256.Slices ![0, 0] S5000x128
  slices_S5000x256_o0_128_S5000x128 : S5000x256.Slices ![0, 128] S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  transposes_S256x256_S256x256_1_0 : S256x256.Transposes [1, 0] S256x256
  bcast_S_S50000x1 : S_.BroadcastsInDim S50000x1 (![] : Fin 0 → Fin S50000x1.rank)
  scatter_S50000_S800000x1_S800000_n_0_0_1_wf : ScatterDims.WF S50000 S800000x1 S800000 [] [0] [0] 1
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S50000x256.size a
  hwx4_3 : ∀ i : grid4.Coords, EltTy.bits .f32 = 32 ∨ (Rect.block (s := S50000x256) S5000x256.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg1) S5000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v44) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg0) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47) S5000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x128, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x256, .f32⟩
  | .hbm, ⟨46, _⟩ => ⟨S_, .f32⟩
  | .hbm, ⟨47, _⟩ => ⟨S50000x256, .f32⟩
  | .hbm, ⟨48, _⟩ => ⟨S800000x1, .i32⟩
  | .hbm, ⟨49, _⟩ => ⟨S50000x256, .f32⟩
  | .hbm, ⟨50, _⟩ => ⟨S50000x1, .f32⟩
  | .hbm, ⟨51, _⟩ => ⟨S50000x256, .f32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S50000x1, .f32⟩
  | .hbm, ⟨86, _⟩ => ⟨S50000x256, .f32⟩
  | .hbm, ⟨87, _⟩ => ⟨S50000x256, .f32⟩
  | .hbm, ⟨88, _⟩ => ⟨S50000x128, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x128, .f32⟩
  | .hbm, ⟨98, _⟩ => ⟨S_, .f32⟩
  | .hbm, ⟨99, _⟩ => ⟨S50000x128, .f32⟩
  | .hbm, ⟨100, _⟩ => ⟨S800000x1, .i32⟩
  | .hbm, ⟨101, _⟩ => ⟨S50000x128, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S256x256, .f32⟩
  | .hbm, ⟨112, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call0_cst : Ref sig .tc := ⟨.hbm, 56, rfl⟩
abbrev main_call0_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S256x256_S256x256_1_0 : S256x256.Transposes [1, 0] S256x256
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The whole-array functions the five kernel regions compute on the extended reals, index by index, over the
  literal shapes of this program (50000 nodes, 256 hidden features, 128 output features).

  * `scaleMatmul x s w`: row `n` of `x` scaled by the per-row factor `s n`, then multiplied by the matrix `w`:
    entry `(n, j)` is `∑ k, (x n k · s n) · w k j`.
  * `biasRelu a s b`: entry `(n, j)` is `max (a n j · s n + b j) 0`.
  * `reparam a s b2 b3 e`: the two halves of `a`'s columns are a mean and a log-deviation; entry `(n, j)` is
    `max (a n j · s n + b2 j) 0 + e n j · exp (a n (128 + j) · s n + b3 j)`.
-/
import Idealize.ShloMosaic.PureOps.Ideal
import Idealize.ShloMosaic.Lib.ValueIdx

noncomputable section

open scoped BigOperators

namespace Cert.Spec

open Idealize.ShloMosaic Idealize.ShloMosaic.ValueIdx

/-- An array of extended reals with `r` rows and `c` columns. -/
abbrev Arr (r c : Nat) : Type := (⟨2, ![r, c]⟩ : Shape).Idx → EReal

/-- The row coordinate of an index, as a number below the row count. -/
abbrev row {r c : Nat} (i : (⟨2, ![r, c]⟩ : Shape).Idx) : Fin r := ⟨(i 0).val, idx2_lt0 i⟩
/-- The column coordinate of an index, as a number below the column count. -/
abbrev colm {r c : Nat} (i : (⟨2, ![r, c]⟩ : Shape).Idx) : Fin c := ⟨(i 1).val, idx2_lt1 i⟩

/-- Rows scaled, then a matrix product: `(n, j) ↦ ∑ k, (x n k · s n) · w k j`. -/
def scaleMatmulAt (x : Arr 50000 256) (s : Arr 50000 1) (w : Arr 256 256) (n : Fin 50000) (j : Fin 256) : EReal :=
  ∑ k : Fin 256, (x (ix2 n k) * s (ix2 n (0 : Fin 1))) * w (ix2 k j)

def scaleMatmul (x : Arr 50000 256) (s : Arr 50000 1) (w : Arr 256 256) : Arr 50000 256 :=
  fun i => scaleMatmulAt x s w (row i) (colm i)

theorem scaleMatmul_ix2 (x : Arr 50000 256) (s : Arr 50000 1) (w : Arr 256 256) (n : Fin 50000) (j : Fin 256) :
    scaleMatmul x s w (ix2 n j) = scaleMatmulAt x s w n j := rfl

/-- Scale, add a per-column bias, clamp below at zero: `(n, j) ↦ max (a n j · s n + b j) 0`. -/
def biasReluAt (a : Arr 50000 256) (s : Arr 50000 1) (b : Arr 1 256) (n : Fin 50000) (j : Fin 256) : EReal :=
  max (a (ix2 n j) * s (ix2 n (0 : Fin 1)) + b (ix2 (0 : Fin 1) j)) 0

def biasRelu (a : Arr 50000 256) (s : Arr 50000 1) (b : Arr 1 256) : Arr 50000 256 :=
  fun i => biasReluAt a s b (row i) (colm i)

theorem biasRelu_ix2 (a : Arr 50000 256) (s : Arr 50000 1) (b : Arr 1 256) (n : Fin 50000) (j : Fin 256) :
    biasRelu a s b (ix2 n j) = biasReluAt a s b n j := rfl

/-- Column `j` of the left half and of the right half of a 256-column array. -/
abbrev lo (j : Fin 128) : Fin 256 := ⟨j.val, by omega⟩
abbrev hi (j : Fin 128) : Fin 256 := ⟨128 + j.val, by omega⟩

/-- The mean from the left half of the columns, the log-deviation from the right half, and the sample:
    `(n, j) ↦ max (a n j · s n + b2 j) 0 + e n j · exp (a n (128 + j) · s n + b3 j)`. -/
def reparamAt (a : Arr 50000 256) (s : Arr 50000 1) (b2 b3 : Arr 1 128) (e : Arr 50000 128) (n : Fin 50000) (j : Fin 128) : EReal :=
  max (a (ix2 n (lo j)) * s (ix2 n (0 : Fin 1)) + b2 (ix2 (0 : Fin 1) j)) 0
    + e (ix2 n j) * Ideal.exp (a (ix2 n (hi j)) * s (ix2 n (0 : Fin 1)) + b3 (ix2 (0 : Fin 1) j))

def reparam (a : Arr 50000 256) (s : Arr 50000 1) (b2 b3 : Arr 1 128) (e : Arr 50000 128) : Arr 50000 128 :=
  fun i => reparamAt a s b2 b3 e (row i) (colm i)

theorem reparam_ix2 (a : Arr 50000 256) (s : Arr 50000 1) (b2 b3 : Arr 1 128) (e : Arr 50000 128) (n : Fin 50000) (j : Fin 128) :
    reparam a s b2 b3 e (ix2 n j) = reparamAt a s b2 b3 e n j := rfl

end Cert.Spec

end
-- ==== Proof.KVal.lean ====
/-
  What the kernel program's five regions and the host operations between them compute, stage by stage, as
  functions of the argument arrays on the extended reals. The host operations (degree counts, the power -1/2,
  the row gather and the scatter-add over the edges, the concatenation of the two weight matrices, the
  transpose) are kept as the program prints them; each region is its whole-array function from Spec.lean.

  With `d_out`, `d_in` the clamped out- and in-degrees:
    x1   = (features · d_out^(-1/2)) W1                         (region 0)
    h    = max (A x1 · d_in^(-1/2) + b1) 0                      (region 1; A sums rows of x1 over the edges)
    x23  = (h · d_out^(-1/2)) [W2 | W3]                         (region 2)
    z    = max (A x23 · d_in^(-1/2) + b2)_left 0 + noise · exp ((A x23 · d_in^(-1/2))_right + b3)   (region 3)
    s    = (features · 1) fcWᵀ                                  (region 4)
-/
import proofs.«108580_j23536420782574_1_alg».proof.KernelIdeal
import proofs.«108580_j23536420782574_1_alg».proof.Proof.Spec

noncomputable section

namespace Cert.KernelIdeal.KVal

open Idealize.ShloMosaic Cert.KernelIdeal

variable [Facts]
open Facts₀ Facts

/-- The clamped degree to the power -1/2: the count of the edges whose endpoint is each node (a scatter-add of
    ones into zeros), at least one, raised to -1/2. -/
def normOf (idx : (⟨S800000, .i32⟩ : BufTy).Contents (Elt Ideal)) : (⟨S50000, .f32⟩ : BufTy).Contents (Elt Ideal) :=
  Host.powf (maximumf (Host.scatterAdd scatter_S50000_S800000x1_S800000_n_0_0_1
      (broadcastInDim S50000 ![] bcast_S_S50000 (constant (F := Ideal) S_ .f32 0x00000000#32))
      (broadcastInDim S800000x1 ![0] bcast_S800000_S800000x1_0 idx)
      (broadcastInDim S800000 ![] bcast_S_S800000 (constant (F := Ideal) S_ .f32 0x3F800000#32)))
    (broadcastInDim S50000 ![] bcast_S_S50000 (constant (F := Ideal) S_ .f32 0x3F800000#32)))
    (broadcastInDim S50000 ![] bcast_S_S50000 (constant (F := Ideal) S_ .f32 0xBF000000#32))

/-- A length-50000 vector as a one-column array. -/
def asCol (v : (⟨S50000, .f32⟩ : BufTy).Contents (Elt Ideal)) : (⟨S50000x1, .f32⟩ : BufTy).Contents (Elt Ideal) :=
  shapeCast S50000x1 v shapeCasts_S50000_S50000x1
/-- A length-256 vector as a one-row array. -/
def asRow256 (v : (⟨S256, .f32⟩ : BufTy).Contents (Elt Ideal)) : (⟨S1x256, .f32⟩ : BufTy).Contents (Elt Ideal) :=
  shapeCast S1x256 v shapeCasts_S256_S1x256
/-- A length-128 vector as a one-row array. -/
def asRow128 (v : (⟨S128, .f32⟩ : BufTy).Contents (Elt Ideal)) : (⟨S1x128, .f32⟩ : BufTy).Contents (Elt Ideal) :=
  shapeCast S1x128 v shapeCasts_S128_S1x128

/-- The source indices as the row gather reads them: a negative index wrapped by adding the node count. -/
def wrapIdx (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The aggregation over the edges: row `src e` of `x` added into row `dst e` of a zero array, for every edge `e`. -/
def aggregate (x : (⟨S50000x256, .f32⟩ : BufTy).Contents (Elt Ideal)) (src dst : (⟨S800000, .i32⟩ : BufTy).Contents (Elt Ideal)) :
    (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 x (wrapIdx src))

/-- Region 0: the scaled features times W1. -/
def x1 (x0 : (⟨S50000x256, .f32⟩ : BufTy).Contents (Elt Ideal)) (x2 : (⟨S256x256, .f32⟩ : BufTy).Contents (Elt Ideal))
    (x9 : (⟨S800000, .i32⟩ : BufTy).Contents (Elt Ideal)) : (⟨S50000x256, .f32⟩ : BufTy).Contents (Elt Ideal) :=
  Spec.scaleMatmul x0 (asCol (normOf x9)) x2

/-- Region 1: the hidden layer. -/
def hid (x0 : (⟨S50000x256, .f32⟩ : BufTy).Contents (Elt Ideal)) (x2 : (⟨S256x256, .f32⟩ : BufTy).Contents (Elt Ideal))
    (x3 : (⟨S256, .f32⟩ : BufTy).Contents (Elt Ideal)) (x9 x10 : (⟨S800000, .i32⟩ : BufTy).Contents (Elt Ideal)) :
    (⟨S50000x256, .f32⟩ : BufTy).Contents (Elt Ideal) :=
  Spec.biasRelu (aggregate (x1 x0 x2 x9) x9 x10) (asCol (normOf x10)) (asRow256 x3)

/-- The two output weight matrices side by side. -/
def w23 (x4 x6 : (⟨S256x128, .f32⟩ : BufTy).Contents (Elt Ideal)) : (⟨S256x256, .f32⟩ : BufTy).Contents (Elt Ideal) :=
  concatenate S256x256 1 [⟨S256x128, x4⟩, ⟨S256x128, x6⟩] concatenates_S256x128_S256x128_S256x256_d1

/-- Region 2: the scaled hidden layer times [W2 | W3]. -/
def x23 (x0 : (⟨S50000x256, .f32⟩ : BufTy).Contents (Elt Ideal)) (x2 : (⟨S256x256, .f32⟩ : BufTy).Contents (Elt Ideal))
    (x3 : (⟨S256, .f32⟩ : BufTy).Contents (Elt Ideal)) (x4 x6 : (⟨S256x128, .f32⟩ : BufTy).Contents (Elt Ideal))
    (x9 x10 : (⟨S800000, .i32⟩ : BufTy).Contents (Elt Ideal)) : (⟨S50000x256, .f32⟩ : BufTy).Contents (Elt Ideal) :=
  Spec.scaleMatmul (hid x0 x2 x3 x9 x10) (asCol (normOf x9)) (w23 x4 x6)

/-- Region 3: the sampled latent. -/
def zed (x0 : (⟨S50000x256, .f32⟩ : BufTy).Contents (Elt Ideal)) (x1' : (⟨S50000x128, .f32⟩ : BufTy).Contents (Elt Ideal))
    (x2 : (⟨S256x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x9 x10 : (⟨S800000, .i32⟩ : BufTy).Contents (Elt Ideal)) : (⟨S50000x128, .f32⟩ : BufTy).Contents (Elt Ideal) :=
  Spec.reparam (aggregate (x23 x0 x2 x3 x4 x6 x9 x10) x9 x10) (asCol (normOf x10)) (asRow128 x5) (asRow128 x7) x1'

/-- Region 4: the features (scaled by one) times the transposed projection weights. -/
def proj (x0 : (⟨S50000x256, .f32⟩ : BufTy).Contents (Elt Ideal)) (x8 : (⟨S256x256, .f32⟩ : BufTy).Contents (Elt Ideal)) :
    (⟨S50000x256, .f32⟩ : BufTy).Contents (Elt Ideal) :=
  Spec.scaleMatmul x0 (broadcastInDim S50000x1 ![] bcast_S_S50000x1 (constant (F := Ideal) S_ .f32 0x3F800000#32))
    (transpose S256x256 [1, 0] x8 transposes_S256x256_S256x256_1_0)

end Cert.KernelIdeal.KVal

end
-- ==== Proof.Region0.lean ====
/-
  Region 0 (the scaled matrix product, rows in ten blocks of 5000): after the region the output array is, index by
  index, `∑ k, (x n k · s n) · w k j` of the arrays the region finds in its three input windows.
-/
import proofs.«108580_j23536420782574_1_alg».proof.Proof.KernelIdealFrame
import proofs.«108580_j23536420782574_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionVal

open Idealize.ShloMosaic Idealize.ShloMosaic.TcCoe Idealize.ShloMosaic.ValueIdx Idealize.SL.Sem
open Cert.KernelIdeal Cert.KernelIdeal.Gen

/-! ## The body's arithmetic at one entry of a block -/

/-- The row coordinate of the left factor's entry is the output's row. -/
theorem lhs0_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- The column coordinate of the left factor's entry is the summation index. -/
theorem lhs0_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- The row coordinate of the right factor's entry is the summation index. -/
theorem rhs0_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- The column coordinate of the right factor's entry is the output's column. -/
theorem rhs0_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A column of per-row factors spread over 256 columns reads, at row `p`, the factor of row `p`. -/
theorem spread_col0_apply (s : Vec Ideal S5000x1 .f32) (p : Fin 5000) (q : Fin 256) :
    broadcastTo S5000x256 s broadcasts_S5000x1_S5000x256 (ix2 p q) = s (ix2 p (0 : Fin 1)) :=
  broadcastTo_apply s broadcasts_S5000x1_S5000x256 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The block the body stores, at row `p` and column `q`: the rows of the first block scaled by the second's
    factors, times the matrix. -/
theorem pay0_apply (x0 : Vec Ideal S5000x256 .f32) (x1 : Vec Ideal S5000x1 .f32) (x2 : Vec Ideal S256x256 .f32) (p : Fin 5000) (q : Fin 256) :
    k0_pay1 (F := Ideal) x0 x1 x2 (ix2 p q) = ∑ k : Fin 256, (x0 (ix2 p k) * x1 (ix2 p (0 : Fin 1))) * x2 (ix2 k q) := by
  unfold k0_pay1
  simp only [shapeCast_self]
  show FloatOps.matmul dot_S5000x256_S256x256_S5000x256_1_0_0_1_n_n none _ _ (constant (F := Ideal) S5000x256 .f32 0x00000000#32) (ix2 p q) = _
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p q) ((ValueIdx.contrEquiv1 dot_S5000x256_S256x256_S5000x256_1_0_0_1_n_n 256 rfl rfl).symm k) = ix2 p k := funext fun a => Fin.ext (by
    match a with
    | ⟨0, _⟩ => exact lhs0_0 _ _
    | ⟨1, _⟩ => exact (lhs0_1 _ _).trans hk)
  have er : dot_S5000x256_S256x256_S5000x256_1_0_0_1_n_n.rhsIdx (ix2 p q) ((ValueIdx.contrEquiv1 dot_S5000x256_S256x256_S5000x256_1_0_0_1_n_n 256 rfl rfl).symm k) = ix2 k q := funext fun a => Fin.ext (by
    match a with
    | ⟨0, _⟩ => exact (rhs0_0 _ _).trans hk
    | ⟨1, _⟩ => exact rhs0_1 _ _)
  rw [el, er, truncf_apply, truncf_apply, mulf_apply, spread_col0_apply]

/-! ## From the blocks to the array -/

-- the buffer contents when the region is entered
variable (V : (c : Dev nD) → (b : Ref sig .tc) → Buf (Elt Ideal) ((c : Thread nD τ).loc b))

theorem zero_offsets0 : (![0, 0] : Fin 2 → Nat) = fun _ => 0 := funext fun a => by fin_cases a <;> rfl

/-- The printed index maps, decided over the ten points: the two row-blocked inputs move with the output, block row
    `t` at point `t`, block column 0; the matrix is one block. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the first input's block at point `t` is row `5000 t + p` of its array. -/
theorem rows_block0 (c : Dev nD) (t : Fin cfg0.N) (p : Fin 5000) (k : Fin 256) (n : Fin 50000) (hn : n.val = t.val * 5000 + p.val) :
    (iblk0 V c 0 t : Vec Ideal S5000x256 .f32) (ix2 p k) = (V c main_arg0 : S50000x256.Idx → EReal) (ix2 n k) := by
  obtain ⟨e0, e1, -⟩ := block_indices0 t
  unfold iblk0
  rw [View.read_apply]
  show V c main_arg0 _ = V c main_arg0 _
  congr 1
  funext a
  apply Fin.ext
  match a with
  | ⟨0, _⟩ => show win0_0.index t (0 : Fin 2) * 5000 + 1 * p.val = n.val; omega
  | ⟨1, _⟩ => show win0_0.index t (1 : Fin 2) * 256 + 1 * k.val = k.val; omega

/-- Row `p` of the factors' block at point `t` is row `5000 t + p` of the factors' column. -/
theorem factors_block0 (c : Dev nD) (t : Fin cfg0.N) (p : Fin 5000) (n : Fin 50000) (hn : n.val = t.val * 5000 + p.val) :
    (iblk0 V c 1 t : Vec Ideal S5000x1 .f32) (ix2 p (0 : Fin 1)) = (V c main_v15 : S50000x1.Idx → EReal) (ix2 n (0 : Fin 1)) := by
  obtain ⟨-, -, e0, e1, -⟩ := block_indices0 t
  unfold iblk0
  rw [View.read_apply]
  show V c main_v15 _ = V c main_v15 _
  congr 1
  funext a
  apply Fin.ext
  match a with
  | ⟨0, _⟩ => show win0_1.index t (0 : Fin 2) * 5000 + 1 * p.val = n.val; omega
  | ⟨1, _⟩ => show win0_1.index t (1 : Fin 2) * 1 + 1 * 0 = 0; omega

/-- The matrix's one block is the matrix. -/
theorem matrix_block0 (c : Dev nD) (t : Fin cfg0.N) (k q : Fin 256) :
    (iblk0 V c 2 t : Vec Ideal S256x256 .f32) (ix2 k q) = (V c main_arg2 : S256x256.Idx → EReal) (ix2 k q) := by
  obtain ⟨-, -, -, -, e0, e1, -⟩ := block_indices0 t
  unfold iblk0
  rw [View.read_apply]
  show V c main_arg2 _ = V c main_arg2 _
  congr 1
  funext a
  apply Fin.ext
  match a with
  | ⟨0, _⟩ => show win0_2.index t (0 : Fin 2) * 256 + 1 * k.val = k.val; omega
  | ⟨1, _⟩ => show win0_2.index t (1 : Fin 2) * 256 + 1 * q.val = q.val; omega

/-- Entry `(p, q)` of the output's block at point `t` sits at `(5000 t + p, q)` in the array. -/
theorem out_block0_emb (t : Fin cfg0.N) (p : Fin 5000) (q : Fin 256) (n : Fin 50000) (hn : n.val = t.val * 5000 + p.val) :
    ((cfg0.win 3).blk t).view.emb (ix2 p q : S5000x256.Idx) = (ix2 n q : S50000x256.Idx) := by
  obtain ⟨-, -, -, -, -, -, e0, e1⟩ := block_indices0 t
  funext a
  apply Fin.ext
  match a with
  | ⟨0, _⟩ => show win0_3.index t (0 : Fin 2) * 5000 + 1 * p.val = n.val; omega
  | ⟨1, _⟩ => show win0_3.index t (1 : Fin 2) * 256 + 1 * q.val = q.val; omega

/-- What point `t` writes back is block `t` of the scaled matrix product of the arrays the region finds. -/
theorem flushed0_eq (c : Dev nD) (t : Fin cfg0.N) :
    (dat0 (F := Ideal) V c).flushed 3 t = ((cfg0.win 3).blk t).view.read (Elt Ideal) (Spec.scaleMatmul (V c main_arg0) (V c main_v15) (V c main_arg2)) := by
  show (cfg0.win 3).cut (grid0.coords t) ((dat0 V c).after 3 t) = _
  rw [after0_3]
  unfold out0_3
  rw [View.canon_unit_zero zero_offsets0]
  simp only [View.ld_unit_zero (S := S5000x256) zero_offsets0, View.ld_unit_zero (S := S5000x1) zero_offsets0, View.ld_unit_zero (S := S256x256) zero_offsets0]
  funext j
  obtain ⟨p, q, rfl⟩ : ∃ (p : Fin 5000) (q : Fin 256), j = ix2 p q := ⟨j 0, j 1, eq_ix2 j⟩
  have hN : cfg0.N = 10 := N_0
  have hn : t.val * 5000 + p.val < 50000 := by have := t.isLt; have := p.isLt; omega
  show k0_pay1 (F := Ideal) (iblk0 V c 0 t) (iblk0 V c 1 t) (iblk0 V c 2 t) (ix2 p q) = Spec.scaleMatmul (V c main_arg0) (V c main_v15) (V c main_arg2) (((cfg0.win 3).blk t).view.emb (ix2 p q : S5000x256.Idx))
  rw [pay0_apply (iblk0 V c 0 t) (iblk0 V c 1 t) (iblk0 V c 2 t) p q, out_block0_emb t p q ⟨t.val * 5000 + p.val, hn⟩ rfl, Spec.scaleMatmul_ix2]
  unfold Spec.scaleMatmulAt
  refine Finset.sum_congr rfl fun k _ => ?_
  rw [rows_block0 V c t p k ⟨t.val * 5000 + p.val, hn⟩ rfl, factors_block0 V c t p ⟨t.val * 5000 + p.val, hn⟩ rfl, matrix_block0 V c t k q]

/-- An index of the array is in point `t`'s block iff each coordinate is in the block's range on its axis. -/
theorem mem_out_block0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v20).slice (win0_3.rect t)).set ↔ _
  rw [View.set_slice_whole, Rect.mem_set_unit]
  exact Iff.rfl

/-- Every block row is some point's. -/
theorem out_rows_onto0 : ∀ b : Fin 10, ∃ t : Fin cfg0.N, win0_3.index t = ![b.val, 0] :=
  (by decide +kernel : ∀ b : Fin 10, ∃ t : Fin grid0.N, win0_3.index t = ![b.val, 0])

/-- The output array of region 0 after its ten grid points is the scaled matrix product of the entry contents. -/
theorem arr0 (c : Dev nD) :
    (dat0 (F := Ideal) V c).arrAt 3 cfg0.N = Spec.scaleMatmul (V c main_arg0) (V c main_v15) (V c main_arg2) := by
  refine (dat0 (F := Ideal) V c).arrAt_eq_of_cover 3 _ (fun t _ => flushed0_eq V c t) fun i => ?_
  have hi0 : (i 0).val < 50000 := (i 0).isLt
  have hi1 : (i 1).val < 256 := (i 1).isLt
  obtain ⟨t, ht⟩ := out_rows_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_out_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

end Cert.KernelIdeal.RegionVal

end
-- ==== Proof.Region1.lean ====
/-
  Region 1 (scale by the in-degree factor, add the bias row, clamp at zero; rows in ten blocks of 5000): after the
  region the output array is `max (a n j · s n + b j) 0` of the arrays the region finds in its three input windows.
-/
import proofs.«108580_j23536420782574_1_alg».proof.Proof.KernelIdealFrame
import proofs.«108580_j23536420782574_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionVal

open Idealize.ShloMosaic Idealize.ShloMosaic.TcCoe Idealize.ShloMosaic.ValueIdx Idealize.SL.Sem
open Cert.KernelIdeal Cert.KernelIdeal.Gen

/-! ## The body's arithmetic at one entry of a block -/

/-- The two zero offsets of a whole-block access, as the constant function. -/
theorem zeroOffsets : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, q)` of what the body computes from a block of rows `x`, their scale column `s` and the bias row `b`:
    `max (x p q · s p + b q) 0`. -/
theorem pay_apply (x : Vec Ideal S5000x256 .f32) (s : Vec Ideal S5000x1 .f32) (b : Vec Ideal S1x256 .f32)
    (p : Fin 5000) (q : Fin 256) :
    k1_pay1 (F := Ideal) x s b (ix2 p q) = max (x (ix2 p q) * s (ix2 p (0 : Fin 1)) + b (ix2 (0 : Fin 1) q)) 0 := by
  unfold k1_pay1
  rw [maximumf_apply, addf_apply, mulf_apply, broadcast_apply, shapeCast_self, shapeCast_self, shapeCast_self,
    broadcastTo_a1_ab_apply, broadcastTo_1b_ab_apply]
  exact congrArg (max _) Ideal.ofBits_zero_f32

-- the TensorCore's buffer contents when the region is entered
variable (V : (c : Dev nD) → (b : Ref sig .tc) → Buf (Elt Ideal) ((c : Thread nD τ).loc b))

/-! ## From the ten blocks to the array -/

/-- The printed index maps over the grid of ten points: the rows' block, the scale column's block and the output's
    block are all row block `t` at column block 0; the bias row is always its one block. -/
theorem idx_facts : ∀ t : Fin cfg1.N, t.val < 10
    ∧ win1_3.index t (0 : Fin 2) = t.val ∧ win1_3.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- Every one of the ten row blocks is some point's. -/
theorem idx_onto : ∀ r : Fin 10, ∃ t : Fin cfg1.N, win1_3.index t (0 : Fin 2) = r.val ∧ win1_3.index t (1 : Fin 2) = 0 :=
  (by decide +kernel : ∀ r : Fin 10, ∃ t : Fin grid1.N, win1_3.index t (0 : Fin 2) = r.val ∧ win1_3.index t (1 : Fin 2) = 0)

/-- Row `p` of block `t` is row `5000 t + p` of the array. -/
def rowOf (t : Fin cfg1.N) (p : Fin 5000) : Fin 50000 :=
  ⟨t.val * 5000 + p.val, by have := (idx_facts t).1; have := p.isLt; omega⟩

/-- Entry `(p, q)` of the output's block `t` sits at `(5000 t + p, q)` of the output array. -/
theorem emb_out (t : Fin cfg1.N) (p : Fin 5000) (q : Fin 256) :
    ((cfg1.win 3).blk t).view.emb (ix2 p q) = (ix2 (rowOf t p) q : S50000x256.Idx) := by
  obtain ⟨-, e30, e31, -⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 256 + 1 * q.val = q.val; omega

/-- Entry `(p, q)` of the rows' block `t` sits at `(5000 t + p, q)` of the rows' array. -/
theorem emb_rows (t : Fin cfg1.N) (p : Fin 5000) (q : Fin 256) :
    ((cfg1.win 0).blk t).view.emb (ix2 p q) = (ix2 (rowOf t p) q : S50000x256.Idx) := by
  obtain ⟨-, -, -, e00, e01, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 256 + 1 * q.val = q.val; omega

/-- Entry `p` of the scale column's block `t` sits at row `5000 t + p` of the scale column. -/
theorem emb_scale (t : Fin cfg1.N) (p : Fin 5000) :
    ((cfg1.win 1).blk t).view.emb (ix2 p (0 : Fin 1)) = (ix2 (rowOf t p) (0 : Fin 1) : S50000x1.Idx) := by
  obtain ⟨-, -, -, -, -, e10, e11, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

/-- The bias row's one block is the bias row. -/
theorem emb_bias (t : Fin cfg1.N) (q : Fin 256) :
    ((cfg1.win 2).blk t).view.emb (ix2 (0 : Fin 1) q) = (ix2 (0 : Fin 1) q : S1x256.Idx) := by
  obtain ⟨-, -, -, -, -, -, -, e20, e21⟩ := idx_facts t
  funext a; apply Fin.ext
  match a with
  | ⟨0, _⟩ => show win1_2.index t (0 : Fin 2) * 1 + 1 * 0 = 0; omega
  | ⟨1, _⟩ => show win1_2.index t (1 : Fin 2) * 256 + 1 * q.val = q.val; omega

/-- The rows' block `t` at `(p, q)` is the rows' array at `(5000 t + p, q)`. -/
theorem rows_at (c : Dev nD) (t : Fin cfg1.N) (p : Fin 5000) (q : Fin 256) :
    (iblk1 V c 0 t : Vec Ideal S5000x256 .f32) (ix2 p q) = (V c main_v30 : Spec.Arr 50000 256) (ix2 (rowOf t p) q) :=
  congrArg (V c main_v30 : Spec.Arr 50000 256) (emb_rows t p q)

/-- The scale column's block `t` at row `p` is the scale column at row `5000 t + p`. -/
theorem scale_at (c : Dev nD) (t : Fin cfg1.N) (p : Fin 5000) :
    (iblk1 V c 1 t : Vec Ideal S5000x1 .f32) (ix2 p (0 : Fin 1)) = (V c main_v16 : Spec.Arr 50000 1) (ix2 (rowOf t p) (0 : Fin 1)) :=
  congrArg (V c main_v16 : Spec.Arr 50000 1) (emb_scale t p)

/-- The bias row's block at column `q` is the bias row at column `q`. -/
theorem bias_at (c : Dev nD) (t : Fin cfg1.N) (q : Fin 256) :
    (iblk1 V c 2 t : Vec Ideal S1x256 .f32) (ix2 (0 : Fin 1) q) = (V c main_v17 : Spec.Arr 1 256) (ix2 (0 : Fin 1) q) :=
  congrArg (V c main_v17 : Spec.Arr 1 256) (emb_bias t q)

/-- What point `t` writes back is block `t` of the whole-array function of the three input arrays. -/
theorem flushed_eq (c : Dev nD) (t : Fin cfg1.N) :
    (dat1 (F := Ideal) V c).flushed 3 t
      = ((cfg1.win 3).blk t).view.read (Elt Ideal) (Spec.biasRelu (V c main_v30) (V c main_v16) (V c main_v17)) := by
  show (cfg1.win 3).cut (grid1.coords t) ((dat1 V c).after 3 t) = _
  rw [after1_3]
  unfold out1_3
  rw [View.canon_unit_zero zeroOffsets]
  simp only [View.ld_unit_zero (S := S5000x256) zeroOffsets, View.ld_unit_zero (S := S5000x1) zeroOffsets,
    View.ld_unit_zero (S := S1x256) zeroOffsets]
  funext j
  obtain ⟨p, q, rfl⟩ : ∃ (p : Fin 5000) (q : Fin 256), j = ix2 p q := ⟨j 0, j 1, eq_ix2 j⟩
  show k1_pay1 (F := Ideal) (iblk1 V c 0 t) (iblk1 V c 1 t) (iblk1 V c 2 t) (ix2 p q)
      = Spec.biasRelu (V c main_v30) (V c main_v16) (V c main_v17) (((cfg1.win 3).blk t).view.emb (ix2 p q))
  rw [pay_apply (iblk1 V c 0 t) (iblk1 V c 1 t) (iblk1 V c 2 t) p q, rows_at V c t p q, scale_at V c t p,
    bias_at V c t q, emb_out t p q, Spec.biasRelu_ix2]
  rfl

/-- An index of the output array is in point `t`'s block iff each coordinate is in the block's range on its axis. -/
theorem mem_blk (t : Fin cfg1.N) (i : S50000x256.Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v31).slice (win1_3.rect t)).set ↔ _
  rw [View.set_slice_whole, Rect.mem_set_unit]
  exact Iff.rfl

/-- Every index of the output array is in some point's block: row `n` is in block `n / 5000`. -/
theorem cover (i : S50000x256.Idx) :
    ∃ t : Fin cfg1.N, (cfg1.win 3).flush t = true ∧ i ∈ ((cfg1.win 3).blk t).view.set := by
  have hi0 : (i 0).val < 50000 := idx2_lt0 i
  have hi1 : (i 1).val < 256 := idx2_lt1 i
  obtain ⟨t, ht0, ht1⟩ := idx_onto ⟨(i 0).val / 5000, by omega⟩
  have ht0' : win1_3.index t (0 : Fin 2) = (i 0).val / 5000 := ht0
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 256 ≤ (i 1).val ∧ (i 1).val < win1_3.index t (1 : Fin 2) * 256 + 256
    omega

/-- The output array of region 1 after its ten grid points. -/
theorem arr1 (c : Dev nD) :
    (dat1 (F := Ideal) V c).arrAt 3 cfg1.N = Spec.biasRelu (V c main_v30) (V c main_v16) (V c main_v17) := by
  exact (dat1 (F := Ideal) V c).arrAt_eq_of_cover 3 (Spec.biasRelu (V c main_v30) (V c main_v16) (V c main_v17))
    (fun t _ => flushed_eq V c t) cover

end Cert.KernelIdeal.RegionVal

end
-- ==== Proof.Region2.lean ====
/-
  Region 2 (the scaled matrix product of the hidden layer with the two output weight matrices side by side): after the
  region the output array is, index by index, `∑ k, (x n k · s n) · w k j` of the arrays the region finds in its three
  input windows.
-/
import proofs.«108580_j23536420782574_1_alg».proof.Proof.KernelIdealFrame
import proofs.«108580_j23536420782574_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionVal

open Idealize.ShloMosaic Idealize.ShloMosaic.TcCoe Idealize.ShloMosaic.ValueIdx Idealize.SL.Sem
open Cert.KernelIdeal Cert.KernelIdeal.Gen

/-! ## The body's arithmetic at one entry of a block -/

/-- The row coordinate of the left factor's entry is the output's row. -/
theorem lhs2_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- The column coordinate of the left factor's entry is the summation index. -/
theorem lhs2_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- The row coordinate of the right factor's entry is the summation index. -/
theorem rhs2_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- The column coordinate of the right factor's entry is the output's column. -/
theorem rhs2_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A column of per-row factors spread over 256 columns reads, at row `p`, the factor of row `p`. -/
theorem spread_col2_apply (s : Vec Ideal S5000x1 .f32) (p : Fin 5000) (q : Fin 256) :
    broadcastTo S5000x256 s broadcasts_S5000x1_S5000x256 (ix2 p q) = s (ix2 p (0 : Fin 1)) :=
  broadcastTo_apply s broadcasts_S5000x1_S5000x256 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The block the body stores, at row `p` and column `q`: the rows of the first block scaled by the second's
    factors, times the matrix. -/
theorem pay2_apply (x0 : Vec Ideal S5000x256 .f32) (x1 : Vec Ideal S5000x1 .f32) (x2 : Vec Ideal S256x256 .f32) (p : Fin 5000) (q : Fin 256) :
    k2_pay1 (F := Ideal) x0 x1 x2 (ix2 p q) = ∑ k : Fin 256, (x0 (ix2 p k) * x1 (ix2 p (0 : Fin 1))) * x2 (ix2 k q) := by
  unfold k2_pay1
  simp only [shapeCast_self]
  show FloatOps.matmul dot_S5000x256_S256x256_S5000x256_1_0_0_1_n_n none _ _ (constant (F := Ideal) S5000x256 .f32 0x00000000#32) (ix2 p q) = _
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p q) ((ValueIdx.contrEquiv1 dot_S5000x256_S256x256_S5000x256_1_0_0_1_n_n 256 rfl rfl).symm k) = ix2 p k := funext fun a => Fin.ext (by
    match a with
    | ⟨0, _⟩ => exact lhs2_0 _ _
    | ⟨1, _⟩ => exact (lhs2_1 _ _).trans hk)
  have er : dot_S5000x256_S256x256_S5000x256_1_0_0_1_n_n.rhsIdx (ix2 p q) ((ValueIdx.contrEquiv1 dot_S5000x256_S256x256_S5000x256_1_0_0_1_n_n 256 rfl rfl).symm k) = ix2 k q := funext fun a => Fin.ext (by
    match a with
    | ⟨0, _⟩ => exact (rhs2_0 _ _).trans hk
    | ⟨1, _⟩ => exact rhs2_1 _ _)
  rw [el, er, truncf_apply, truncf_apply, mulf_apply, spread_col2_apply]

/-! ## From the blocks to the array -/

-- the buffer contents when the region is entered
variable (V : (c : Dev nD) → (b : Ref sig .tc) → Buf (Elt Ideal) ((c : Thread nD τ).loc b))

theorem zero_offsets2 : (![0, 0] : Fin 2 → Nat) = fun _ => 0 := funext fun a => by fin_cases a <;> rfl

/-- The printed index maps, decided over the ten points: the two row-blocked inputs move with the output, block row
    `t` at point `t`, block column 0; the matrix is one block. -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the first input's block at point `t` is row `5000 t + p` of its array. -/
theorem rows_block2 (c : Dev nD) (t : Fin cfg2.N) (p : Fin 5000) (k : Fin 256) (n : Fin 50000) (hn : n.val = t.val * 5000 + p.val) :
    (iblk2 V c 0 t : Vec Ideal S5000x256 .f32) (ix2 p k) = (V c main_v31 : S50000x256.Idx → EReal) (ix2 n k) := by
  obtain ⟨e0, e1, -⟩ := block_indices2 t
  unfold iblk2
  rw [View.read_apply]
  show V c main_v31 _ = V c main_v31 _
  congr 1
  funext a
  apply Fin.ext
  match a with
  | ⟨0, _⟩ => show win2_0.index t (0 : Fin 2) * 5000 + 1 * p.val = n.val; omega
  | ⟨1, _⟩ => show win2_0.index t (1 : Fin 2) * 256 + 1 * k.val = k.val; omega

/-- Row `p` of the factors' block at point `t` is row `5000 t + p` of the factors' column. -/
theorem factors_block2 (c : Dev nD) (t : Fin cfg2.N) (p : Fin 5000) (n : Fin 50000) (hn : n.val = t.val * 5000 + p.val) :
    (iblk2 V c 1 t : Vec Ideal S5000x1 .f32) (ix2 p (0 : Fin 1)) = (V c main_v15 : S50000x1.Idx → EReal) (ix2 n (0 : Fin 1)) := by
  obtain ⟨-, -, e0, e1, -⟩ := block_indices2 t
  unfold iblk2
  rw [View.read_apply]
  show V c main_v15 _ = V c main_v15 _
  congr 1
  funext a
  apply Fin.ext
  match a with
  | ⟨0, _⟩ => show win2_1.index t (0 : Fin 2) * 5000 + 1 * p.val = n.val; omega
  | ⟨1, _⟩ => show win2_1.index t (1 : Fin 2) * 1 + 1 * 0 = 0; omega

/-- The matrix's one block is the matrix. -/
theorem matrix_block2 (c : Dev nD) (t : Fin cfg2.N) (k q : Fin 256) :
    (iblk2 V c 2 t : Vec Ideal S256x256 .f32) (ix2 k q) = (V c main_v32 : S256x256.Idx → EReal) (ix2 k q) := by
  obtain ⟨-, -, -, -, e0, e1, -⟩ := block_indices2 t
  unfold iblk2
  rw [View.read_apply]
  show V c main_v32 _ = V c main_v32 _
  congr 1
  funext a
  apply Fin.ext
  match a with
  | ⟨0, _⟩ => show win2_2.index t (0 : Fin 2) * 256 + 1 * k.val = k.val; omega
  | ⟨1, _⟩ => show win2_2.index t (1 : Fin 2) * 256 + 1 * q.val = q.val; omega

/-- Entry `(p, q)` of the output's block at point `t` sits at `(5000 t + p, q)` in the array. -/
theorem out_block2_emb (t : Fin cfg2.N) (p : Fin 5000) (q : Fin 256) (n : Fin 50000) (hn : n.val = t.val * 5000 + p.val) :
    ((cfg2.win 3).blk t).view.emb (ix2 p q : S5000x256.Idx) = (ix2 n q : S50000x256.Idx) := by
  obtain ⟨-, -, -, -, -, -, e0, e1⟩ := block_indices2 t
  funext a
  apply Fin.ext
  match a with
  | ⟨0, _⟩ => show win2_3.index t (0 : Fin 2) * 5000 + 1 * p.val = n.val; omega
  | ⟨1, _⟩ => show win2_3.index t (1 : Fin 2) * 256 + 1 * q.val = q.val; omega

/-- What point `t` writes back is block `t` of the scaled matrix product of the arrays the region finds. -/
theorem flushed2_eq (c : Dev nD) (t : Fin cfg2.N) :
    (dat2 (F := Ideal) V c).flushed 3 t = ((cfg2.win 3).blk t).view.read (Elt Ideal) (Spec.scaleMatmul (V c main_v31) (V c main_v15) (V c main_v32)) := by
  show (cfg2.win 3).cut (grid2.coords t) ((dat2 V c).after 3 t) = _
  rw [after2_3]
  unfold out2_3
  rw [View.canon_unit_zero zero_offsets2]
  simp only [View.ld_unit_zero (S := S5000x256) zero_offsets2, View.ld_unit_zero (S := S5000x1) zero_offsets2, View.ld_unit_zero (S := S256x256) zero_offsets2]
  funext j
  obtain ⟨p, q, rfl⟩ : ∃ (p : Fin 5000) (q : Fin 256), j = ix2 p q := ⟨j 0, j 1, eq_ix2 j⟩
  have hN : cfg2.N = 10 := N_2
  have hn : t.val * 5000 + p.val < 50000 := by have := t.isLt; have := p.isLt; omega
  show k2_pay1 (F := Ideal) (iblk2 V c 0 t) (iblk2 V c 1 t) (iblk2 V c 2 t) (ix2 p q) = Spec.scaleMatmul (V c main_v31) (V c main_v15) (V c main_v32) (((cfg2.win 3).blk t).view.emb (ix2 p q : S5000x256.Idx))
  rw [pay2_apply (iblk2 V c 0 t) (iblk2 V c 1 t) (iblk2 V c 2 t) p q, out_block2_emb t p q ⟨t.val * 5000 + p.val, hn⟩ rfl, Spec.scaleMatmul_ix2]
  unfold Spec.scaleMatmulAt
  refine Finset.sum_congr rfl fun k _ => ?_
  rw [rows_block2 V c t p k ⟨t.val * 5000 + p.val, hn⟩ rfl, factors_block2 V c t p ⟨t.val * 5000 + p.val, hn⟩ rfl, matrix_block2 V c t k q]

/-- An index of the array is in point `t`'s block iff each coordinate is in the block's range on its axis. -/
theorem mem_out_block2 (t : Fin cfg2.N) (i : S50000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole main_v33).slice (win2_3.rect t)).set ↔ _
  rw [View.set_slice_whole, Rect.mem_set_unit]
  exact Iff.rfl

/-- Every block row is some point's. -/
theorem out_rows_onto2 : ∀ b : Fin 10, ∃ t : Fin cfg2.N, win2_3.index t = ![b.val, 0] :=
  (by decide +kernel : ∀ b : Fin 10, ∃ t : Fin grid2.N, win2_3.index t = ![b.val, 0])

/-- The output array of region 2 after its ten grid points is the scaled matrix product of the entry contents. -/
theorem arr2 (c : Dev nD) :
    (dat2 (F := Ideal) V c).arrAt 3 cfg2.N = Spec.scaleMatmul (V c main_v31) (V c main_v15) (V c main_v32) := by
  refine (dat2 (F := Ideal) V c).arrAt_eq_of_cover 3 _ (fun t _ => flushed2_eq V c t) fun i => ?_
  have hi0 : (i 0).val < 50000 := (i 0).isLt
  have hi1 : (i 1).val < 256 := (i 1).isLt
  obtain ⟨t, ht⟩ := out_rows_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_out_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 256 ≤ (i 1).val ∧ (i 1).val < win2_3.index t (1 : Fin 2) * 256 + 256; omega

end Cert.KernelIdeal.RegionVal

end
-- ==== Proof.Region3.lean ====
/-
  Region 3 (the mean from the left 128 columns, the log-deviation from the right 128 columns, the sample
  `mean + noise · exp logdev`; rows in ten blocks of 5000).
-/
import proofs.«108580_j23536420782574_1_alg».proof.Proof.KernelIdealFrame
import proofs.«108580_j23536420782574_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionVal

open Idealize.ShloMosaic Idealize.ShloMosaic.TcCoe Idealize.ShloMosaic.ValueIdx Idealize.SL.Sem
open Cert.KernelIdeal Cert.KernelIdeal.Gen

-- the TensorCore's buffer contents when the region is entered
variable (V : (c : Dev nD) → (b : Ref sig .tc) → Buf (Elt Ideal) ((c : Thread nD τ).loc b))

/-! ## The body's arithmetic entry by entry, each block as rows of its array, and the ten blocks covering the output -/

namespace Reparam

/-- The zero offsets of a whole-block access. -/
theorem hz : (![0, 0] : Fin 2 → Nat) = fun _ => 0 :=
  funext fun a => by match a with | ⟨0, _⟩ => rfl | ⟨1, _⟩ => rfl

/-- A one-column array `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE BODY'S ARITHMETIC AT AN ENTRY `(p, q)` of the block: the left half of the wide block scaled, biased and
    clamped below at zero, plus the noise times the exponential of the right half scaled and biased. -/
theorem pay_apply (x0 : Vec Ideal S5000x256 .f32) (x1 : Vec Ideal S5000x1 .f32) (x2 : Vec Ideal S1x128 .f32)
    (x1' : Vec Ideal S5000x1 .f32) (x3 : Vec Ideal S1x128 .f32) (x4 : Vec Ideal S5000x128 .f32)
    (p : Fin 5000) (q : Fin 128) :
    k3_pay1 (F := Ideal) x0 x1 x2 x1' x3 x4 (ix2 p q)
      = max (x0 (ix2 p (Spec.lo q)) * x1 (ix2 p (0 : Fin 1)) + x2 (ix2 (0 : Fin 1) q)) 0
        + x4 (ix2 p q) * Ideal.exp (x0 (ix2 p (Spec.hi q)) * x1' (ix2 p (0 : Fin 1)) + x3 (ix2 (0 : Fin 1) q)) := by
  unfold k3_pay1
  simp only [shapeCast_self]
  show max (extractStridedSlice S5000x128 ![0, 0] x0 slices_S5000x256_o0_0_S5000x128 (ix2 p q)
        * broadcastTo S5000x128 x1 broadcasts_S5000x1_S5000x128 (ix2 p q)
        + broadcastTo S5000x128 x2 broadcasts_S1x128_S5000x128 (ix2 p q)) (Ideal.ofBits .f32 0x00000000#32)
      + x4 (ix2 p q) * Ideal.exp (extractStridedSlice S5000x128 ![0, 128] x0 slices_S5000x256_o0_128_S5000x128 (ix2 p q)
        * broadcastTo S5000x128 x1' broadcasts_S5000x1_S5000x128 (ix2 p q)
        + broadcastTo S5000x128 x3 broadcasts_S1x128_S5000x128 (ix2 p q)) = _
  rw [slice2_axis1_apply 0 x0 slices_S5000x256_o0_0_S5000x128 p q (Spec.lo q) (Nat.zero_add _).symm,
    slice2_axis1_apply 128 x0 slices_S5000x256_o0_128_S5000x128 p q (Spec.hi q) rfl,
    broadcastTo_a1_ab_apply x1, broadcastTo_a1_ab_apply x1', broadcastTo_1b_ab_apply x2, broadcastTo_1b_ab_apply x3,
    Ideal.ofBits_zero_f32]

/-- The printed index maps over the ten grid points: each row-blocked window sits at block `(t, 0)`, the two bias
    rows at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The wide input's block at point `t` is rows `5000 t … 5000 t + 4999` of its array. -/
theorem blk0 (c : Dev nD) (t : Fin cfg3.N) (p : Fin 5000) (k : Fin 256) (r : Fin 50000) (hr : r.val = t.val * 5000 + p.val) :
    (iblk3 (F := Ideal) V c 0 t : Vec Ideal S5000x256 .f32) (ix2 p k) = (V c main_v43 : Spec.Arr 50000 256) (ix2 r k) := by
  obtain ⟨e0, e1, -⟩ := idx_facts t
  show (V c main_v43 : Spec.Arr 50000 256) (((cfg3.win 0).blk t).view.emb (ix2 p k)) = _
  congr 1
  funext a; apply Fin.ext
  match a with
  | ⟨0, _⟩ => show win3_0.index t (0 : Fin 2) * 5000 + 1 * p.val = r.val; omega
  | ⟨1, _⟩ => show win3_0.index t (1 : Fin 2) * 256 + 1 * k.val = k.val; omega

/-- The per-row factor's block at point `t` is rows `5000 t … 5000 t + 4999` of its array. -/
theorem blk1 (c : Dev nD) (t : Fin cfg3.N) (p : Fin 5000) (r : Fin 50000) (hr : r.val = t.val * 5000 + p.val) :
    (iblk3 (F := Ideal) V c 1 t : Vec Ideal S5000x1 .f32) (ix2 p (0 : Fin 1)) = (V c main_v16 : Spec.Arr 50000 1) (ix2 r (0 : Fin 1)) := by
  obtain ⟨-, -, e0, e1, -⟩ := idx_facts t
  show (V c main_v16 : Spec.Arr 50000 1) (((cfg3.win 1).blk t).view.emb (ix2 p (0 : Fin 1))) = _
  congr 1
  funext a; apply Fin.ext
  match a with
  | ⟨0, _⟩ => show win3_1.index t (0 : Fin 2) * 5000 + 1 * p.val = r.val; omega
  | ⟨1, _⟩ => show win3_1.index t (1 : Fin 2) * 1 + 1 * 0 = 0; omega

/-- The first bias row's block at every point is the whole row. -/
theorem blk2 (c : Dev nD) (t : Fin cfg3.N) (q : Fin 128) :
    (iblk3 (F := Ideal) V c 2 t : Vec Ideal S1x128 .f32) (ix2 (0 : Fin 1) q) = (V c main_v18 : Spec.Arr 1 128) (ix2 (0 : Fin 1) q) := by
  obtain ⟨-, -, -, -, e0, e1, -⟩ := idx_facts t
  show (V c main_v18 : Spec.Arr 1 128) (((cfg3.win 2).blk t).view.emb (ix2 (0 : Fin 1) q)) = _
  congr 1
  funext a; apply Fin.ext
  match a with
  | ⟨0, _⟩ => show win3_2.index t (0 : Fin 2) * 1 + 1 * 0 = 0; omega
  | ⟨1, _⟩ => show win3_2.index t (1 : Fin 2) * 128 + 1 * q.val = q.val; omega

/-- The second bias row's block at every point is the whole row. -/
theorem blk3 (c : Dev nD) (t : Fin cfg3.N) (q : Fin 128) :
    (iblk3 (F := Ideal) V c 3 t : Vec Ideal S1x128 .f32) (ix2 (0 : Fin 1) q) = (V c main_v19 : Spec.Arr 1 128) (ix2 (0 : Fin 1) q) := by
  obtain ⟨-, -, -, -, -, -, e0, e1, -⟩ := idx_facts t
  show (V c main_v19 : Spec.Arr 1 128) (((cfg3.win 3).blk t).view.emb (ix2 (0 : Fin 1) q)) = _
  congr 1
  funext a; apply Fin.ext
  match a with
  | ⟨0, _⟩ => show win3_3.index t (0 : Fin 2) * 1 + 1 * 0 = 0; omega
  | ⟨1, _⟩ => show win3_3.index t (1 : Fin 2) * 128 + 1 * q.val = q.val; omega

/-- The noise's block at point `t` is rows `5000 t … 5000 t + 4999` of its array. -/
theorem blk4 (c : Dev nD) (t : Fin cfg3.N) (p : Fin 5000) (q : Fin 128) (r : Fin 50000) (hr : r.val = t.val * 5000 + p.val) :
    (iblk3 (F := Ideal) V c 4 t : Vec Ideal S5000x128 .f32) (ix2 p q) = (V c main_arg1 : Spec.Arr 50000 128) (ix2 r q) := by
  obtain ⟨-, -, -, -, -, -, -, -, e0, e1, -⟩ := idx_facts t
  show (V c main_arg1 : Spec.Arr 50000 128) (((cfg3.win 4).blk t).view.emb (ix2 p q)) = _
  congr 1
  funext a; apply Fin.ext
  match a with
  | ⟨0, _⟩ => show win3_4.index t (0 : Fin 2) * 5000 + 1 * p.val = r.val; omega
  | ⟨1, _⟩ => show win3_4.index t (1 : Fin 2) * 128 + 1 * q.val = q.val; omega

/-- WHAT POINT `t` WRITES BACK is block `t` of the whole-array function of the arrays the region finds. -/
theorem flushed_eq (c : Dev nD) (t : Fin cfg3.N) :
    (dat3 (F := Ideal) V c).flushed 5 t = ((cfg3.win 5).blk t).view.read (Elt Ideal)
      (Spec.reparam (V c main_v43) (V c main_v16) (V c main_v18) (V c main_v19) (V c main_arg1)) := by
  show (cfg3.win 5).cut (grid3.coords t) ((dat3 (F := Ideal) V c).after 5 t) = _
  rw [after3_5]
  unfold out3_5
  rw [View.canon_unit_zero hz]
  simp only [View.ld_unit_zero (S := S5000x256) hz, View.ld_unit_zero (S := S5000x1) hz,
    View.ld_unit_zero (S := S1x128) hz, View.ld_unit_zero (S := S5000x128) hz]
  obtain ⟨-, -, -, -, -, -, -, -, -, -, e0, e1⟩ := idx_facts t
  have ht : t.val < 10 := lt_of_lt_of_eq t.isLt N_3
  funext j
  obtain ⟨p, q, rfl⟩ : ∃ (p : Fin 5000) (q : Fin 128), j = ix2 p q := ⟨j 0, j 1, eq_ix2 j⟩
  have hp := p.isLt
  obtain ⟨r, hr⟩ : ∃ r : Fin 50000, r.val = t.val * 5000 + p.val := ⟨⟨t.val * 5000 + p.val, by omega⟩, rfl⟩
  have hemb : ((cfg3.win 5).blk t).view.emb (ix2 p q) = ix2 r q := by
    funext a; apply Fin.ext
    match a with
    | ⟨0, _⟩ => show win3_5.index t (0 : Fin 2) * 5000 + 1 * p.val = r.val; omega
    | ⟨1, _⟩ => show win3_5.index t (1 : Fin 2) * 128 + 1 * q.val = q.val; omega
  show k3_pay1 (F := Ideal) (iblk3 V c 0 t) (iblk3 V c 1 t) (iblk3 V c 2 t) (iblk3 V c 1 t) (iblk3 V c 3 t) (iblk3 V c 4 t) (ix2 p q)
    = Spec.reparam (V c main_v43) (V c main_v16) (V c main_v18) (V c main_v19) (V c main_arg1) (((cfg3.win 5).blk t).view.emb (ix2 p q))
  rw [hemb, Spec.reparam_ix2,
    pay_apply (iblk3 V c 0 t) (iblk3 V c 1 t) (iblk3 V c 2 t) (iblk3 V c 1 t) (iblk3 V c 3 t) (iblk3 V c 4 t) p q,
    blk0 V c t p (Spec.lo q) r hr, blk0 V c t p (Spec.hi q) r hr, blk1 V c t p r hr, blk2 V c t q, blk3 V c t q,
    blk4 V c t p q r hr]
  rfl

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v44).slice (win3_5.rect t)).set ↔ _
  rw [View.set_slice_whole, Rect.mem_set_unit]
  exact Iff.rfl

/-- Row `n` of the output array is in the block of point `n / 5000`: the ten blocks cover the array. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

end Reparam

/-- The output array of region 3 after its ten grid points. -/
theorem arr3 (c : Dev nD) :
    (dat3 (F := Ideal) V c).arrAt 5 cfg3.N
      = Spec.reparam (V c main_v43) (V c main_v16) (V c main_v18) (V c main_v19) (V c main_arg1) :=
  (dat3 (F := Ideal) V c).arrAt_eq_of_cover 5 _ (fun t _ => Reparam.flushed_eq V c t) Reparam.cover

end Cert.KernelIdeal.RegionVal

end
-- ==== Proof.Region4.lean ====
/-
  Region 4 (the scaled matrix product of the features, each row scaled by the one-column array it finds, with the
  transposed projection weights): after the region the output array is, index by index, `∑ k, (x n k · s n) · w k j`
  of the arrays the region finds in its three input windows.
-/
import proofs.«108580_j23536420782574_1_alg».proof.Proof.KernelIdealFrame
import proofs.«108580_j23536420782574_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionVal

open Idealize.ShloMosaic Idealize.ShloMosaic.TcCoe Idealize.ShloMosaic.ValueIdx Idealize.SL.Sem
open Cert.KernelIdeal Cert.KernelIdeal.Gen

/-! ## The body's arithmetic at one entry of a block -/

/-- The row coordinate of the left factor's entry is the output's row. -/
theorem lhs4_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- The column coordinate of the left factor's entry is the summation index. -/
theorem lhs4_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- The row coordinate of the right factor's entry is the summation index. -/
theorem rhs4_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- The column coordinate of the right factor's entry is the output's column. -/
theorem rhs4_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A column of per-row factors spread over 256 columns reads, at row `p`, the factor of row `p`. -/
theorem spread_col4_apply (s : Vec Ideal S5000x1 .f32) (p : Fin 5000) (q : Fin 256) :
    broadcastTo S5000x256 s broadcasts_S5000x1_S5000x256 (ix2 p q) = s (ix2 p (0 : Fin 1)) :=
  broadcastTo_apply s broadcasts_S5000x1_S5000x256 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The block the body stores, at row `p` and column `q`: the rows of the first block scaled by the second's
    factors, times the matrix. -/
theorem pay4_apply (x0 : Vec Ideal S5000x256 .f32) (x1 : Vec Ideal S5000x1 .f32) (x2 : Vec Ideal S256x256 .f32) (p : Fin 5000) (q : Fin 256) :
    k4_pay1 (F := Ideal) x0 x1 x2 (ix2 p q) = ∑ k : Fin 256, (x0 (ix2 p k) * x1 (ix2 p (0 : Fin 1))) * x2 (ix2 k q) := by
  unfold k4_pay1
  simp only [shapeCast_self]
  show FloatOps.matmul dot_S5000x256_S256x256_S5000x256_1_0_0_1_n_n none _ _ (constant (F := Ideal) S5000x256 .f32 0x00000000#32) (ix2 p q) = _
  rw [Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p q) ((ValueIdx.contrEquiv1 dot_S5000x256_S256x256_S5000x256_1_0_0_1_n_n 256 rfl rfl).symm k) = ix2 p k := funext fun a => Fin.ext (by
    match a with
    | ⟨0, _⟩ => exact lhs4_0 _ _
    | ⟨1, _⟩ => exact (lhs4_1 _ _).trans hk)
  have er : dot_S5000x256_S256x256_S5000x256_1_0_0_1_n_n.rhsIdx (ix2 p q) ((ValueIdx.contrEquiv1 dot_S5000x256_S256x256_S5000x256_1_0_0_1_n_n 256 rfl rfl).symm k) = ix2 k q := funext fun a => Fin.ext (by
    match a with
    | ⟨0, _⟩ => exact (rhs4_0 _ _).trans hk
    | ⟨1, _⟩ => exact rhs4_1 _ _)
  rw [el, er, truncf_apply, truncf_apply, mulf_apply, spread_col4_apply]

/-! ## From the blocks to the array -/

-- the buffer contents when the region is entered
variable (V : (c : Dev nD) → (b : Ref sig .tc) → Buf (Elt Ideal) ((c : Thread nD τ).loc b))

theorem zero_offsets4 : (![0, 0] : Fin 2 → Nat) = fun _ => 0 := funext fun a => by fin_cases a <;> rfl

/-- The printed index maps, decided over the ten points: the two row-blocked inputs move with the output, block row
    `t` at point `t`, block column 0; the matrix is one block. -/
theorem block_indices4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `p` of the first input's block at point `t` is row `5000 t + p` of its array. -/
theorem rows_block4 (c : Dev nD) (t : Fin cfg4.N) (p : Fin 5000) (k : Fin 256) (n : Fin 50000) (hn : n.val = t.val * 5000 + p.val) :
    (iblk4 V c 0 t : Vec Ideal S5000x256 .f32) (ix2 p k) = (V c main_arg0 : S50000x256.Idx → EReal) (ix2 n k) := by
  obtain ⟨e0, e1, -⟩ := block_indices4 t
  unfold iblk4
  rw [View.read_apply]
  show V c main_arg0 _ = V c main_arg0 _
  congr 1
  funext a
  apply Fin.ext
  match a with
  | ⟨0, _⟩ => show win4_0.index t (0 : Fin 2) * 5000 + 1 * p.val = n.val; omega
  | ⟨1, _⟩ => show win4_0.index t (1 : Fin 2) * 256 + 1 * k.val = k.val; omega

/-- Row `p` of the factors' block at point `t` is row `5000 t + p` of the factors' column. -/
theorem factors_block4 (c : Dev nD) (t : Fin cfg4.N) (p : Fin 5000) (n : Fin 50000) (hn : n.val = t.val * 5000 + p.val) :
    (iblk4 V c 1 t : Vec Ideal S5000x1 .f32) (ix2 p (0 : Fin 1)) = (V c main_v46 : S50000x1.Idx → EReal) (ix2 n (0 : Fin 1)) := by
  obtain ⟨-, -, e0, e1, -⟩ := block_indices4 t
  unfold iblk4
  rw [View.read_apply]
  show V c main_v46 _ = V c main_v46 _
  congr 1
  funext a
  apply Fin.ext
  match a with
  | ⟨0, _⟩ => show win4_1.index t (0 : Fin 2) * 5000 + 1 * p.val = n.val; omega
  | ⟨1, _⟩ => show win4_1.index t (1 : Fin 2) * 1 + 1 * 0 = 0; omega

/-- The matrix's one block is the matrix. -/
theorem matrix_block4 (c : Dev nD) (t : Fin cfg4.N) (k q : Fin 256) :
    (iblk4 V c 2 t : Vec Ideal S256x256 .f32) (ix2 k q) = (V c main_v45 : S256x256.Idx → EReal) (ix2 k q) := by
  obtain ⟨-, -, -, -, e0, e1, -⟩ := block_indices4 t
  unfold iblk4
  rw [View.read_apply]
  show V c main_v45 _ = V c main_v45 _
  congr 1
  funext a
  apply Fin.ext
  match a with
  | ⟨0, _⟩ => show win4_2.index t (0 : Fin 2) * 256 + 1 * k.val = k.val; omega
  | ⟨1, _⟩ => show win4_2.index t (1 : Fin 2) * 256 + 1 * q.val = q.val; omega

/-- Entry `(p, q)` of the output's block at point `t` sits at `(5000 t + p, q)` in the array. -/
theorem out_block4_emb (t : Fin cfg4.N) (p : Fin 5000) (q : Fin 256) (n : Fin 50000) (hn : n.val = t.val * 5000 + p.val) :
    ((cfg4.win 3).blk t).view.emb (ix2 p q : S5000x256.Idx) = (ix2 n q : S50000x256.Idx) := by
  obtain ⟨-, -, -, -, -, -, e0, e1⟩ := block_indices4 t
  funext a
  apply Fin.ext
  match a with
  | ⟨0, _⟩ => show win4_3.index t (0 : Fin 2) * 5000 + 1 * p.val = n.val; omega
  | ⟨1, _⟩ => show win4_3.index t (1 : Fin 2) * 256 + 1 * q.val = q.val; omega

/-- What point `t` writes back is block `t` of the scaled matrix product of the arrays the region finds. -/
theorem flushed4_eq (c : Dev nD) (t : Fin cfg4.N) :
    (dat4 (F := Ideal) V c).flushed 3 t = ((cfg4.win 3).blk t).view.read (Elt Ideal) (Spec.scaleMatmul (V c main_arg0) (V c main_v46) (V c main_v45)) := by
  show (cfg4.win 3).cut (grid4.coords t) ((dat4 V c).after 3 t) = _
  rw [after4_3]
  unfold out4_3
  rw [View.canon_unit_zero zero_offsets4]
  simp only [View.ld_unit_zero (S := S5000x256) zero_offsets4, View.ld_unit_zero (S := S5000x1) zero_offsets4, View.ld_unit_zero (S := S256x256) zero_offsets4]
  funext j
  obtain ⟨p, q, rfl⟩ : ∃ (p : Fin 5000) (q : Fin 256), j = ix2 p q := ⟨j 0, j 1, eq_ix2 j⟩
  have hN : cfg4.N = 10 := N_4
  have hn : t.val * 5000 + p.val < 50000 := by have := t.isLt; have := p.isLt; omega
  show k4_pay1 (F := Ideal) (iblk4 V c 0 t) (iblk4 V c 1 t) (iblk4 V c 2 t) (ix2 p q) = Spec.scaleMatmul (V c main_arg0) (V c main_v46) (V c main_v45) (((cfg4.win 3).blk t).view.emb (ix2 p q : S5000x256.Idx))
  rw [pay4_apply (iblk4 V c 0 t) (iblk4 V c 1 t) (iblk4 V c 2 t) p q, out_block4_emb t p q ⟨t.val * 5000 + p.val, hn⟩ rfl, Spec.scaleMatmul_ix2]
  unfold Spec.scaleMatmulAt
  refine Finset.sum_congr rfl fun k _ => ?_
  rw [rows_block4 V c t p k ⟨t.val * 5000 + p.val, hn⟩ rfl, factors_block4 V c t p ⟨t.val * 5000 + p.val, hn⟩ rfl, matrix_block4 V c t k q]

/-- An index of the array is in point `t`'s block iff each coordinate is in the block's range on its axis. -/
theorem mem_out_block4 (t : Fin cfg4.N) (i : S50000x256.Idx) :
    i ∈ ((cfg4.win 3).blk t).view.set ↔ ∀ a : Fin 2, win4_3.index t a * S5000x256.size a ≤ (i a).val ∧ (i a).val < win4_3.index t a * S5000x256.size a + S5000x256.size a := by
  show i ∈ ((View.whole main_v47).slice (win4_3.rect t)).set ↔ _
  rw [View.set_slice_whole, Rect.mem_set_unit]
  exact Iff.rfl

/-- Every block row is some point's. -/
theorem out_rows_onto4 : ∀ b : Fin 10, ∃ t : Fin cfg4.N, win4_3.index t = ![b.val, 0] :=
  (by decide +kernel : ∀ b : Fin 10, ∃ t : Fin grid4.N, win4_3.index t = ![b.val, 0])

/-- The output array of region 4 after its ten grid points is the scaled matrix product of the entry contents. -/
theorem arr4 (c : Dev nD) :
    (dat4 (F := Ideal) V c).arrAt 3 cfg4.N = Spec.scaleMatmul (V c main_arg0) (V c main_v46) (V c main_v45) := by
  refine (dat4 (F := Ideal) V c).arrAt_eq_of_cover 3 _ (fun t _ => flushed4_eq V c t) fun i => ?_
  have hi0 : (i 0).val < 50000 := (i 0).isLt
  have hi1 : (i 1).val < 256 := (i 1).isLt
  obtain ⟨t, ht⟩ := out_rows_onto4 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_out_block4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 256 ≤ (i 1).val ∧ (i 1).val < win4_3.index t (1 : Fin 2) * 256 + 256; omega

end Cert.KernelIdeal.RegionVal

end
-- ==== Proof.FoldHid.lean ====
/-
  The buffer contents at the boundaries of the kernel program's segments, read back to the argument arrays: each
  host stretch as its operations' composed term, each region as its whole-array function, a buffer no later
  segment writes carried unchanged. Here: the hidden layer (written by region 1, carried to the end) and the
  projected features (written by region 4).
-/
import proofs.«108580_j23536420782574_1_alg».proof.Proof.KernelIdealFrame
import proofs.«108580_j23536420782574_1_alg».proof.Proof.KVal
import proofs.«108580_j23536420782574_1_alg».proof.Proof.Region0
import proofs.«108580_j23536420782574_1_alg».proof.Proof.Region1
import proofs.«108580_j23536420782574_1_alg».proof.Proof.Region2
import proofs.«108580_j23536420782574_1_alg».proof.Proof.Region3
import proofs.«108580_j23536420782574_1_alg».proof.Proof.Region4
import Idealize.ShloMosaic.Lib.StableHlo.Run

set_option maxRecDepth 16384

noncomputable section

namespace Cert.KernelIdeal.Fold

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A buffer none of a host stretch's operations writes keeps its contents over the stretch: every operation's
    written buffer is another reference. -/
local macro "host_keeps" h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The argument arrays and the reshaped vectors, carried from the launch to region 1's exit

No host operation and no region writes an argument array, and the degree factors and bias rows are written once, by
the first host stretch; a region that reads one of them through an input window leaves it as it found it. -/

theorem W1_arg0_eq (c : Dev nD) :
    W1 (F := Ideal) m ρ c (Proc.devRef .tc main_arg0) = W0 (F := Ideal) m ρ c (Proc.devRef .tc main_arg0) := by
  show StableHlo.after hostOps0 (W0 m ρ c) (Proc.devRef .tc main_arg0) = W0 m ρ c (Proc.devRef .tc main_arg0)
  host_keeps hostOps0
theorem W1_arg0 (c : Dev nD) :
    W1 (F := Ideal) m ρ c (Proc.devRef .tc main_arg0) = m ((c : Thread nD τ).loc main_arg0) :=
  (W1_arg0_eq m ρ c).trans rfl

theorem W1_arg2_eq (c : Dev nD) :
    W1 (F := Ideal) m ρ c (Proc.devRef .tc main_arg2) = W0 (F := Ideal) m ρ c (Proc.devRef .tc main_arg2) := by
  show StableHlo.after hostOps0 (W0 m ρ c) (Proc.devRef .tc main_arg2) = W0 m ρ c (Proc.devRef .tc main_arg2)
  host_keeps hostOps0
theorem W1_arg2 (c : Dev nD) :
    W1 (F := Ideal) m ρ c (Proc.devRef .tc main_arg2) = m ((c : Thread nD τ).loc main_arg2) :=
  (W1_arg2_eq m ρ c).trans rfl

theorem W1_arg9_eq (c : Dev nD) :
    W1 (F := Ideal) m ρ c (Proc.devRef .tc main_arg9) = W0 (F := Ideal) m ρ c (Proc.devRef .tc main_arg9) := by
  show StableHlo.after hostOps0 (W0 m ρ c) (Proc.devRef .tc main_arg9) = W0 m ρ c (Proc.devRef .tc main_arg9)
  host_keeps hostOps0
theorem W1_arg9 (c : Dev nD) :
    W1 (F := Ideal) m ρ c (Proc.devRef .tc main_arg9) = m ((c : Thread nD τ).loc main_arg9) :=
  (W1_arg9_eq m ρ c).trans rfl
theorem W2_arg9_eq (c : Dev nD) :
    W2 (F := Ideal) m ρ c (Proc.devRef .tc main_arg9) = W1 (F := Ideal) m ρ c (Proc.devRef .tc main_arg9) := by
  exact W2_of_ne m ρ c main_arg9 (by decide)
theorem W2_arg9 (c : Dev nD) :
    W2 (F := Ideal) m ρ c (Proc.devRef .tc main_arg9)
      = m ((c : Thread nD τ).loc main_arg9) :=
  (W2_arg9_eq m ρ c).trans (W1_arg9 m ρ c)
theorem W3_arg9_eq (c : Dev nD) :
    W3 (F := Ideal) m ρ c (Proc.devRef .tc main_arg9) = W2 (F := Ideal) m ρ c (Proc.devRef .tc main_arg9) := by
  show StableHlo.after hostOps1 (W2 m ρ c) (Proc.devRef .tc main_arg9) = W2 m ρ c (Proc.devRef .tc main_arg9)
  host_keeps hostOps1
theorem W3_arg9 (c : Dev nD) :
    W3 (F := Ideal) m ρ c (Proc.devRef .tc main_arg9)
      = m ((c : Thread nD τ).loc main_arg9) :=
  (W3_arg9_eq m ρ c).trans (W2_arg9 m ρ c)
theorem W4_arg9_eq (c : Dev nD) :
    W4 (F := Ideal) m ρ c (Proc.devRef .tc main_arg9) = W3 (F := Ideal) m ρ c (Proc.devRef .tc main_arg9) := by
  exact W4_of_ne m ρ c main_arg9 (by decide)
theorem W4_arg9 (c : Dev nD) :
    W4 (F := Ideal) m ρ c (Proc.devRef .tc main_arg9)
      = m ((c : Thread nD τ).loc main_arg9) :=
  (W4_arg9_eq m ρ c).trans (W3_arg9 m ρ c)

theorem W1_arg10_eq (c : Dev nD) :
    W1 (F := Ideal) m ρ c (Proc.devRef .tc main_arg10) = W0 (F := Ideal) m ρ c (Proc.devRef .tc main_arg10) := by
  show StableHlo.after hostOps0 (W0 m ρ c) (Proc.devRef .tc main_arg10) = W0 m ρ c (Proc.devRef .tc main_arg10)
  host_keeps hostOps0
theorem W1_arg10 (c : Dev nD) :
    W1 (F := Ideal) m ρ c (Proc.devRef .tc main_arg10) = m ((c : Thread nD τ).loc main_arg10) :=
  (W1_arg10_eq m ρ c).trans rfl
theorem W2_arg10_eq (c : Dev nD) :
    W2 (F := Ideal) m ρ c (Proc.devRef .tc main_arg10) = W1 (F := Ideal) m ρ c (Proc.devRef .tc main_arg10) := by
  exact W2_of_ne m ρ c main_arg10 (by decide)
theorem W2_arg10 (c : Dev nD) :
    W2 (F := Ideal) m ρ c (Proc.devRef .tc main_arg10)
      = m ((c : Thread nD τ).loc main_arg10) :=
  (W2_arg10_eq m ρ c).trans (W1_arg10 m ρ c)
theorem W3_arg10_eq (c : Dev nD) :
    W3 (F := Ideal) m ρ c (Proc.devRef .tc main_arg10) = W2 (F := Ideal) m ρ c (Proc.devRef .tc main_arg10) := by
  show StableHlo.after hostOps1 (W2 m ρ c) (Proc.devRef .tc main_arg10) = W2 m ρ c (Proc.devRef .tc main_arg10)
  host_keeps hostOps1
theorem W3_arg10 (c : Dev nD) :
    W3 (F := Ideal) m ρ c (Proc.devRef .tc main_arg10)
      = m ((c : Thread nD τ).loc main_arg10) :=
  (W3_arg10_eq m ρ c).trans (W2_arg10 m ρ c)
theorem W4_arg10_eq (c : Dev nD) :
    W4 (F := Ideal) m ρ c (Proc.devRef .tc main_arg10) = W3 (F := Ideal) m ρ c (Proc.devRef .tc main_arg10) := by
  exact W4_of_ne m ρ c main_arg10 (by decide)
theorem W4_arg10 (c : Dev nD) :
    W4 (F := Ideal) m ρ c (Proc.devRef .tc main_arg10)
      = m ((c : Thread nD τ).loc main_arg10) :=
  (W4_arg10_eq m ρ c).trans (W3_arg10 m ρ c)

theorem W1_arg1_eq (c : Dev nD) :
    W1 (F := Ideal) m ρ c (Proc.devRef .tc main_arg1) = W0 (F := Ideal) m ρ c (Proc.devRef .tc main_arg1) := by
  show StableHlo.after hostOps0 (W0 m ρ c) (Proc.devRef .tc main_arg1) = W0 m ρ c (Proc.devRef .tc main_arg1)
  host_keeps hostOps0
theorem W1_arg1 (c : Dev nD) :
    W1 (F := Ideal) m ρ c (Proc.devRef .tc main_arg1) = m ((c : Thread nD τ).loc main_arg1) :=
  (W1_arg1_eq m ρ c).trans rfl
theorem W2_arg1_eq (c : Dev nD) :
    W2 (F := Ideal) m ρ c (Proc.devRef .tc main_arg1) = W1 (F := Ideal) m ρ c (Proc.devRef .tc main_arg1) := by
  exact W2_of_ne m ρ c main_arg1 (by decide)
theorem W2_arg1 (c : Dev nD) :
    W2 (F := Ideal) m ρ c (Proc.devRef .tc main_arg1)
      = m ((c : Thread nD τ).loc main_arg1) :=
  (W2_arg1_eq m ρ c).trans (W1_arg1 m ρ c)
theorem W3_arg1_eq (c : Dev nD) :
    W3 (F := Ideal) m ρ c (Proc.devRef .tc main_arg1) = W2 (F := Ideal) m ρ c (Proc.devRef .tc main_arg1) := by
  show StableHlo.after hostOps1 (W2 m ρ c) (Proc.devRef .tc main_arg1) = W2 m ρ c (Proc.devRef .tc main_arg1)
  host_keeps hostOps1
theorem W3_arg1 (c : Dev nD) :
    W3 (F := Ideal) m ρ c (Proc.devRef .tc main_arg1)
      = m ((c : Thread nD τ).loc main_arg1) :=
  (W3_arg1_eq m ρ c).trans (W2_arg1 m ρ c)
theorem W4_arg1_eq (c : Dev nD) :
    W4 (F := Ideal) m ρ c (Proc.devRef .tc main_arg1) = W3 (F := Ideal) m ρ c (Proc.devRef .tc main_arg1) := by
  exact W4_of_ne m ρ c main_arg1 (by decide)
theorem W4_arg1 (c : Dev nD) :
    W4 (F := Ideal) m ρ c (Proc.devRef .tc main_arg1)
      = m ((c : Thread nD τ).loc main_arg1) :=
  (W4_arg1_eq m ρ c).trans (W3_arg1 m ρ c)

theorem W1_arg4_eq (c : Dev nD) :
    W1 (F := Ideal) m ρ c (Proc.devRef .tc main_arg4) = W0 (F := Ideal) m ρ c (Proc.devRef .tc main_arg4) := by
  show StableHlo.after hostOps0 (W0 m ρ c) (Proc.devRef .tc main_arg4) = W0 m ρ c (Proc.devRef .tc main_arg4)
  host_keeps hostOps0
theorem W1_arg4 (c : Dev nD) :
    W1 (F := Ideal) m ρ c (Proc.devRef .tc main_arg4) = m ((c : Thread nD τ).loc main_arg4) :=
  (W1_arg4_eq m ρ c).trans rfl
theorem W2_arg4_eq (c : Dev nD) :
    W2 (F := Ideal) m ρ c (Proc.devRef .tc main_arg4) = W1 (F := Ideal) m ρ c (Proc.devRef .tc main_arg4) := by
  exact W2_of_ne m ρ c main_arg4 (by decide)
theorem W2_arg4 (c : Dev nD) :
    W2 (F := Ideal) m ρ c (Proc.devRef .tc main_arg4)
      = m ((c : Thread nD τ).loc main_arg4) :=
  (W2_arg4_eq m ρ c).trans (W1_arg4 m ρ c)
theorem W3_arg4_eq (c : Dev nD) :
    W3 (F := Ideal) m ρ c (Proc.devRef .tc main_arg4) = W2 (F := Ideal) m ρ c (Proc.devRef .tc main_arg4) := by
  show StableHlo.after hostOps1 (W2 m ρ c) (Proc.devRef .tc main_arg4) = W2 m ρ c (Proc.devRef .tc main_arg4)
  host_keeps hostOps1
theorem W3_arg4 (c : Dev nD) :
    W3 (F := Ideal) m ρ c (Proc.devRef .tc main_arg4)
      = m ((c : Thread nD τ).loc main_arg4) :=
  (W3_arg4_eq m ρ c).trans (W2_arg4 m ρ c)
theorem W4_arg4_eq (c : Dev nD) :
    W4 (F := Ideal) m ρ c (Proc.devRef .tc main_arg4) = W3 (F := Ideal) m ρ c (Proc.devRef .tc main_arg4) := by
  exact W4_of_ne m ρ c main_arg4 (by decide)
theorem W4_arg4 (c : Dev nD) :
    W4 (F := Ideal) m ρ c (Proc.devRef .tc main_arg4)
      = m ((c : Thread nD τ).loc main_arg4) :=
  (W4_arg4_eq m ρ c).trans (W3_arg4 m ρ c)

theorem W1_arg6_eq (c : Dev nD) :
    W1 (F := Ideal) m ρ c (Proc.devRef .tc main_arg6) = W0 (F := Ideal) m ρ c (Proc.devRef .tc main_arg6) := by
  show StableHlo.after hostOps0 (W0 m ρ c) (Proc.devRef .tc main_arg6) = W0 m ρ c (Proc.devRef .tc main_arg6)
  host_keeps hostOps0
theorem W1_arg6 (c : Dev nD) :
    W1 (F := Ideal) m ρ c (Proc.devRef .tc main_arg6) = m ((c : Thread nD τ).loc main_arg6) :=
  (W1_arg6_eq m ρ c).trans rfl
theorem W2_arg6_eq (c : Dev nD) :
    W2 (F := Ideal) m ρ c (Proc.devRef .tc main_arg6) = W1 (F := Ideal) m ρ c (Proc.devRef .tc main_arg6) := by
  exact W2_of_ne m ρ c main_arg6 (by decide)
theorem W2_arg6 (c : Dev nD) :
    W2 (F := Ideal) m ρ c (Proc.devRef .tc main_arg6)
      = m ((c : Thread nD τ).loc main_arg6) :=
  (W2_arg6_eq m ρ c).trans (W1_arg6 m ρ c)
theorem W3_arg6_eq (c : Dev nD) :
    W3 (F := Ideal) m ρ c (Proc.devRef .tc main_arg6) = W2 (F := Ideal) m ρ c (Proc.devRef .tc main_arg6) := by
  show StableHlo.after hostOps1 (W2 m ρ c) (Proc.devRef .tc main_arg6) = W2 m ρ c (Proc.devRef .tc main_arg6)
  host_keeps hostOps1
theorem W3_arg6 (c : Dev nD) :
    W3 (F := Ideal) m ρ c (Proc.devRef .tc main_arg6)
      = m ((c : Thread nD τ).loc main_arg6) :=
  (W3_arg6_eq m ρ c).trans (W2_arg6 m ρ c)
theorem W4_arg6_eq (c : Dev nD) :
    W4 (F := Ideal) m ρ c (Proc.devRef .tc main_arg6) = W3 (F := Ideal) m ρ c (Proc.devRef .tc main_arg6) := by
  exact W4_of_ne m ρ c main_arg6 (by decide)
theorem W4_arg6 (c : Dev nD) :
    W4 (F := Ideal) m ρ c (Proc.devRef .tc main_arg6)
      = m ((c : Thread nD τ).loc main_arg6) :=
  (W4_arg6_eq m ρ c).trans (W3_arg6 m ρ c)

theorem W1_v15 (c : Dev nD) :
    (W1 (F := Ideal) m ρ c (Proc.devRef .tc main_v15) : (⟨S50000x1, .f32⟩ : BufTy).Contents (Elt Ideal))
      = KVal.asCol (KVal.normOf (m ((c : Thread nD τ).loc main_arg9))) := by
  show StableHlo.after hostOps0 (W0 m ρ c) (Proc.devRef .tc main_v15) = _
  simp only [hostOps0]
  after_results
  rfl
theorem W2_v15_eq (c : Dev nD) :
    W2 (F := Ideal) m ρ c (Proc.devRef .tc main_v15) = W1 (F := Ideal) m ρ c (Proc.devRef .tc main_v15) := by
  exact (W2_arr m ρ c 1).trans (((dat0 (V1 m ρ) c).arrAt_in 1 rfl _).trans (A_eq0 (V1 m ρ) c 1))
theorem W2_v15 (c : Dev nD) :
    (W2 (F := Ideal) m ρ c (Proc.devRef .tc main_v15) : (⟨S50000x1, .f32⟩ : BufTy).Contents (Elt Ideal))
      = KVal.asCol (KVal.normOf (m ((c : Thread nD τ).loc main_arg9))) :=
  (W2_v15_eq m ρ c).trans (W1_v15 m ρ c)
theorem W3_v15_eq (c : Dev nD) :
    W3 (F := Ideal) m ρ c (Proc.devRef .tc main_v15) = W2 (F := Ideal) m ρ c (Proc.devRef .tc main_v15) := by
  show StableHlo.after hostOps1 (W2 m ρ c) (Proc.devRef .tc main_v15) = W2 m ρ c (Proc.devRef .tc main_v15)
  host_keeps hostOps1
theorem W3_v15 (c : Dev nD) :
    (W3 (F := Ideal) m ρ c (Proc.devRef .tc main_v15) : (⟨S50000x1, .f32⟩ : BufTy).Contents (Elt Ideal))
      = KVal.asCol (KVal.normOf (m ((c : Thread nD τ).loc main_arg9))) :=
  (W3_v15_eq m ρ c).trans (W2_v15 m ρ c)
theorem W4_v15_eq (c : Dev nD) :
    W4 (F := Ideal) m ρ c (Proc.devRef .tc main_v15) = W3 (F := Ideal) m ρ c (Proc.devRef .tc main_v15) := by
  exact W4_of_ne m ρ c main_v15 (by decide)
theorem W4_v15 (c : Dev nD) :
    (W4 (F := Ideal) m ρ c (Proc.devRef .tc main_v15) : (⟨S50000x1, .f32⟩ : BufTy).Contents (Elt Ideal))
      = KVal.asCol (KVal.normOf (m ((c : Thread nD τ).loc main_arg9))) :=
  (W4_v15_eq m ρ c).trans (W3_v15 m ρ c)

theorem W1_v16 (c : Dev nD) :
    (W1 (F := Ideal) m ρ c (Proc.devRef .tc main_v16) : (⟨S50000x1, .f32⟩ : BufTy).Contents (Elt Ideal))
      = KVal.asCol (KVal.normOf (m ((c : Thread nD τ).loc main_arg10))) := by
  show StableHlo.after hostOps0 (W0 m ρ c) (Proc.devRef .tc main_v16) = _
  simp only [hostOps0]
  after_results
  rfl
theorem W2_v16_eq (c : Dev nD) :
    W2 (F := Ideal) m ρ c (Proc.devRef .tc main_v16) = W1 (F := Ideal) m ρ c (Proc.devRef .tc main_v16) := by
  exact W2_of_ne m ρ c main_v16 (by decide)
theorem W2_v16 (c : Dev nD) :
    (W2 (F := Ideal) m ρ c (Proc.devRef .tc main_v16) : (⟨S50000x1, .f32⟩ : BufTy).Contents (Elt Ideal))
      = KVal.asCol (KVal.normOf (m ((c : Thread nD τ).loc main_arg10))) :=
  (W2_v16_eq m ρ c).trans (W1_v16 m ρ c)
theorem W3_v16_eq (c : Dev nD) :
    W3 (F := Ideal) m ρ c (Proc.devRef .tc main_v16) = W2 (F := Ideal) m ρ c (Proc.devRef .tc main_v16) := by
  show StableHlo.after hostOps1 (W2 m ρ c) (Proc.devRef .tc main_v16) = W2 m ρ c (Proc.devRef .tc main_v16)
  host_keeps hostOps1
theorem W3_v16 (c : Dev nD) :
    (W3 (F := Ideal) m ρ c (Proc.devRef .tc main_v16) : (⟨S50000x1, .f32⟩ : BufTy).Contents (Elt Ideal))
      = KVal.asCol (KVal.normOf (m ((c : Thread nD τ).loc main_arg10))) :=
  (W3_v16_eq m ρ c).trans (W2_v16 m ρ c)
theorem W4_v16_eq (c : Dev nD) :
    W4 (F := Ideal) m ρ c (Proc.devRef .tc main_v16) = W3 (F := Ideal) m ρ c (Proc.devRef .tc main_v16) := by
  exact (W4_arr m ρ c 1).trans (((dat1 (V3 m ρ) c).arrAt_in 1 rfl _).trans (A_eq1 (V3 m ρ) c 1))
theorem W4_v16 (c : Dev nD) :
    (W4 (F := Ideal) m ρ c (Proc.devRef .tc main_v16) : (⟨S50000x1, .f32⟩ : BufTy).Contents (Elt Ideal))
      = KVal.asCol (KVal.normOf (m ((c : Thread nD τ).loc main_arg10))) :=
  (W4_v16_eq m ρ c).trans (W3_v16 m ρ c)

theorem W1_v17 (c : Dev nD) :
    (W1 (F := Ideal) m ρ c (Proc.devRef .tc main_v17) : (⟨S1x256, .f32⟩ : BufTy).Contents (Elt Ideal))
      = KVal.asRow256 (m ((c : Thread nD τ).loc main_arg3)) := by
  show StableHlo.after hostOps0 (W0 m ρ c) (Proc.devRef .tc main_v17) = _
  simp only [hostOps0]
  after_results
  rfl
theorem W2_v17_eq (c : Dev nD) :
    W2 (F := Ideal) m ρ c (Proc.devRef .tc main_v17) = W1 (F := Ideal) m ρ c (Proc.devRef .tc main_v17) := by
  exact W2_of_ne m ρ c main_v17 (by decide)
theorem W2_v17 (c : Dev nD) :
    (W2 (F := Ideal) m ρ c (Proc.devRef .tc main_v17) : (⟨S1x256, .f32⟩ : BufTy).Contents (Elt Ideal))
      = KVal.asRow256 (m ((c : Thread nD τ).loc main_arg3)) :=
  (W2_v17_eq m ρ c).trans (W1_v17 m ρ c)
theorem W3_v17_eq (c : Dev nD) :
    W3 (F := Ideal) m ρ c (Proc.devRef .tc main_v17) = W2 (F := Ideal) m ρ c (Proc.devRef .tc main_v17) := by
  show StableHlo.after hostOps1 (W2 m ρ c) (Proc.devRef .tc main_v17) = W2 m ρ c (Proc.devRef .tc main_v17)
  host_keeps hostOps1
theorem W3_v17 (c : Dev nD) :
    (W3 (F := Ideal) m ρ c (Proc.devRef .tc main_v17) : (⟨S1x256, .f32⟩ : BufTy).Contents (Elt Ideal))
      = KVal.asRow256 (m ((c : Thread nD τ).loc main_arg3)) :=
  (W3_v17_eq m ρ c).trans (W2_v17 m ρ c)

theorem W1_v18 (c : Dev nD) :
    (W1 (F := Ideal) m ρ c (Proc.devRef .tc main_v18) : (⟨S1x128, .f32⟩ : BufTy).Contents (Elt Ideal))
      = KVal.asRow128 (m ((c : Thread nD τ).loc main_arg5)) := by
  show StableHlo.after hostOps0 (W0 m ρ c) (Proc.devRef .tc main_v18) = _
  simp only [hostOps0]
  after_results
  rfl
theorem W2_v18_eq (c : Dev nD) :
    W2 (F := Ideal) m ρ c (Proc.devRef .tc main_v18) = W1 (F := Ideal) m ρ c (Proc.devRef .tc main_v18) := by
  exact W2_of_ne m ρ c main_v18 (by decide)
theorem W2_v18 (c : Dev nD) :
    (W2 (F := Ideal) m ρ c (Proc.devRef .tc main_v18) : (⟨S1x128, .f32⟩ : BufTy).Contents (Elt Ideal))
      = KVal.asRow128 (m ((c : Thread nD τ).loc main_arg5)) :=
  (W2_v18_eq m ρ c).trans (W1_v18 m ρ c)
theorem W3_v18_eq (c : Dev nD) :
    W3 (F := Ideal) m ρ c (Proc.devRef .tc main_v18) = W2 (F := Ideal) m ρ c (Proc.devRef .tc main_v18) := by
  show StableHlo.after hostOps1 (W2 m ρ c) (Proc.devRef .tc main_v18) = W2 m ρ c (Proc.devRef .tc main_v18)
  host_keeps hostOps1
theorem W3_v18 (c : Dev nD) :
    (W3 (F := Ideal) m ρ c (Proc.devRef .tc main_v18) : (⟨S1x128, .f32⟩ : BufTy).Contents (Elt Ideal))
      = KVal.asRow128 (m ((c : Thread nD τ).loc main_arg5)) :=
  (W3_v18_eq m ρ c).trans (W2_v18 m ρ c)
theorem W4_v18_eq (c : Dev nD) :
    W4 (F := Ideal) m ρ c (Proc.devRef .tc main_v18) = W3 (F := Ideal) m ρ c (Proc.devRef .tc main_v18) := by
  exact W4_of_ne m ρ c main_v18 (by decide)
theorem W4_v18 (c : Dev nD) :
    (W4 (F := Ideal) m ρ c (Proc.devRef .tc main_v18) : (⟨S1x128, .f32⟩ : BufTy).Contents (Elt Ideal))
      = KVal.asRow128 (m ((c : Thread nD τ).loc main_arg5)) :=
  (W4_v18_eq m ρ c).trans (W3_v18 m ρ c)

theorem W1_v19 (c : Dev nD) :
    (W1 (F := Ideal) m ρ c (Proc.devRef .tc main_v19) : (⟨S1x128, .f32⟩ : BufTy).Contents (Elt Ideal))
      = KVal.asRow128 (m ((c : Thread nD τ).loc main_arg7)) := by
  show StableHlo.after hostOps0 (W0 m ρ c) (Proc.devRef .tc main_v19) = _
  simp only [hostOps0]
  after_results
  rfl
theorem W2_v19_eq (c : Dev nD) :
    W2 (F := Ideal) m ρ c (Proc.devRef .tc main_v19) = W1 (F := Ideal) m ρ c (Proc.devRef .tc main_v19) := by
  exact W2_of_ne m ρ c main_v19 (by decide)
theorem W2_v19 (c : Dev nD) :
    (W2 (F := Ideal) m ρ c (Proc.devRef .tc main_v19) : (⟨S1x128, .f32⟩ : BufTy).Contents (Elt Ideal))
      = KVal.asRow128 (m ((c : Thread nD τ).loc main_arg7)) :=
  (W2_v19_eq m ρ c).trans (W1_v19 m ρ c)
theorem W3_v19_eq (c : Dev nD) :
    W3 (F := Ideal) m ρ c (Proc.devRef .tc main_v19) = W2 (F := Ideal) m ρ c (Proc.devRef .tc main_v19) := by
  show StableHlo.after hostOps1 (W2 m ρ c) (Proc.devRef .tc main_v19) = W2 m ρ c (Proc.devRef .tc main_v19)
  host_keeps hostOps1
theorem W3_v19 (c : Dev nD) :
    (W3 (F := Ideal) m ρ c (Proc.devRef .tc main_v19) : (⟨S1x128, .f32⟩ : BufTy).Contents (Elt Ideal))
      = KVal.asRow128 (m ((c : Thread nD τ).loc main_arg7)) :=
  (W3_v19_eq m ρ c).trans (W2_v19 m ρ c)
theorem W4_v19_eq (c : Dev nD) :
    W4 (F := Ideal) m ρ c (Proc.devRef .tc main_v19) = W3 (F := Ideal) m ρ c (Proc.devRef .tc main_v19) := by
  exact W4_of_ne m ρ c main_v19 (by decide)
theorem W4_v19 (c : Dev nD) :
    (W4 (F := Ideal) m ρ c (Proc.devRef .tc main_v19) : (⟨S1x128, .f32⟩ : BufTy).Contents (Elt Ideal))
      = KVal.asRow128 (m ((c : Thread nD τ).loc main_arg7)) :=
  (W4_v19_eq m ρ c).trans (W3_v19 m ρ c)

/-! ## Congruence of the stage functions in their arguments -/

theorem scaleMatmul_congr {x x' : Spec.Arr 50000 256} {s s' : Spec.Arr 50000 1} {w w' : Spec.Arr 256 256}
    (hx : x = x') (hs : s = s') (hw : w = w') : Spec.scaleMatmul x s w = Spec.scaleMatmul x' s' w' := by
  subst hx hs hw; rfl
theorem biasRelu_congr {a a' : Spec.Arr 50000 256} {s s' : Spec.Arr 50000 1} {b b' : Spec.Arr 1 256}
    (ha : a = a') (hs : s = s') (hb : b = b') : Spec.biasRelu a s b = Spec.biasRelu a' s' b' := by
  subst ha hs hb; rfl
theorem aggregate_congr {x x' : (⟨S50000x256, .f32⟩ : BufTy).Contents (Elt Ideal)} {u u' v v' : (⟨S800000, .i32⟩ : BufTy).Contents (Elt Ideal)}
    (hx : x = x') (hu : u = u') (hv : v = v') : KVal.aggregate x u v = KVal.aggregate x' u' v' := by
  subst hx hu hv; rfl

/-! ## The hidden layer: region 0, the aggregation over the edges, region 1 -/

/-- Region 0's output: the features, each row scaled by its out-degree factor, times the first weight matrix. -/
theorem W2_v20 (c : Dev nD) :
    (W2 (F := Ideal) m ρ c (Proc.devRef .tc main_v20) : (⟨S50000x256, .f32⟩ : BufTy).Contents (Elt Ideal))
      = KVal.x1 (m ((c : Thread nD τ).loc main_arg0)) (m ((c : Thread nD τ).loc main_arg2)) (m ((c : Thread nD τ).loc main_arg9)) :=
  ((W2_arr m ρ c 3).trans (RegionVal.arr0 (V1 m ρ) c)).trans
    (scaleMatmul_congr (W1_arg0 m ρ c) (W1_v15 m ρ c) (W1_arg2 m ρ c))

/-- The second host stretch gathers the rows of region 0's output at the wrapped source indices and adds them into
    a zero array at the destination indices. -/
theorem W3_v30_step (c : Dev nD) :
    (W3 (F := Ideal) m ρ c (Proc.devRef .tc main_v30) : (⟨S50000x256, .f32⟩ : BufTy).Contents (Elt Ideal))
      = KVal.aggregate (W2 (F := Ideal) m ρ c (Proc.devRef .tc main_v20)) (W2 (F := Ideal) m ρ c (Proc.devRef .tc main_arg9))
          (W2 (F := Ideal) m ρ c (Proc.devRef .tc main_arg10)) := by
  show StableHlo.after hostOps1 (W2 m ρ c) (Proc.devRef .tc main_v30) = _
  simp only [hostOps1]
  after_results
  rfl

theorem W3_v30 (c : Dev nD) :
    (W3 (F := Ideal) m ρ c (Proc.devRef .tc main_v30) : (⟨S50000x256, .f32⟩ : BufTy).Contents (Elt Ideal))
      = KVal.aggregate (KVal.x1 (m ((c : Thread nD τ).loc main_arg0)) (m ((c : Thread nD τ).loc main_arg2)) (m ((c : Thread nD τ).loc main_arg9))) (m ((c : Thread nD τ).loc main_arg9)) (m ((c : Thread nD τ).loc main_arg10)) :=
  (W3_v30_step m ρ c).trans (aggregate_congr (W2_v20 m ρ c) (W2_arg9 m ρ c) (W2_arg10 m ρ c))

/-! ## The hidden layer carried to the end of the run

Region 2 reads the hidden layer through its first input window; no later host operation and no other region
touches it. -/

theorem W5_v31_eq (c : Dev nD) :
    W5 (F := Ideal) m ρ c (Proc.devRef .tc main_v31) = W4 (F := Ideal) m ρ c (Proc.devRef .tc main_v31) := by
  show StableHlo.after hostOps2 (W4 m ρ c) (Proc.devRef .tc main_v31) = W4 m ρ c (Proc.devRef .tc main_v31)
  host_keeps hostOps2
theorem W6_v31_eq (c : Dev nD) :
    W6 (F := Ideal) m ρ c (Proc.devRef .tc main_v31) = W5 (F := Ideal) m ρ c (Proc.devRef .tc main_v31) := by
  exact (W6_arr m ρ c 0).trans (((dat2 (V5 m ρ) c).arrAt_in 0 rfl _).trans (A_eq2 (V5 m ρ) c 0))
theorem W7_v31_eq (c : Dev nD) :
    W7 (F := Ideal) m ρ c (Proc.devRef .tc main_v31) = W6 (F := Ideal) m ρ c (Proc.devRef .tc main_v31) := by
  show StableHlo.after hostOps3 (W6 m ρ c) (Proc.devRef .tc main_v31) = W6 m ρ c (Proc.devRef .tc main_v31)
  host_keeps hostOps3
theorem W8_v31_eq (c : Dev nD) :
    W8 (F := Ideal) m ρ c (Proc.devRef .tc main_v31) = W7 (F := Ideal) m ρ c (Proc.devRef .tc main_v31) := by
  exact W8_of_ne m ρ c main_v31 (by decide)
theorem W9_v31_eq (c : Dev nD) :
    W9 (F := Ideal) m ρ c (Proc.devRef .tc main_v31) = W8 (F := Ideal) m ρ c (Proc.devRef .tc main_v31) := by
  show StableHlo.after hostOps4 (W8 m ρ c) (Proc.devRef .tc main_v31) = W8 m ρ c (Proc.devRef .tc main_v31)
  host_keeps hostOps4
theorem W10_v31_eq (c : Dev nD) :
    W10 (F := Ideal) m ρ c (Proc.devRef .tc main_v31) = W9 (F := Ideal) m ρ c (Proc.devRef .tc main_v31) := by
  exact W10_of_ne m ρ c main_v31 (by decide)

/-! ## The projection: the last host stretch and region 4 -/

theorem W10_arg0_eq (c : Dev nD) :
    W10 (F := Ideal) m ρ c (Proc.devRef .tc main_arg0) = W9 (F := Ideal) m ρ c (Proc.devRef .tc main_arg0) := by
  exact (W10_arr m ρ c 0).trans (((dat4 (V9 m ρ) c).arrAt_in 0 rfl _).trans (A_eq4 (V9 m ρ) c 0))

theorem W10_arg8_eq (c : Dev nD) :
    W10 (F := Ideal) m ρ c (Proc.devRef .tc main_arg8) = W9 (F := Ideal) m ρ c (Proc.devRef .tc main_arg8) := by
  exact W10_of_ne m ρ c main_arg8 (by decide)

theorem W9_arg8_eq (c : Dev nD) :
    W9 (F := Ideal) m ρ c (Proc.devRef .tc main_arg8) = W8 (F := Ideal) m ρ c (Proc.devRef .tc main_arg8) := by
  show StableHlo.after hostOps4 (W8 m ρ c) (Proc.devRef .tc main_arg8) = W8 m ρ c (Proc.devRef .tc main_arg8)
  host_keeps hostOps4

/-- The features at region 4's entry are the launch's. -/
theorem W9_arg0 (c : Dev nD) :
    W9 (F := Ideal) m ρ c (Proc.devRef .tc main_arg0) = m ((c : Thread nD τ).loc main_arg0) :=
  (W10_arg0_eq m ρ c).symm.trans (W10_main_arg0 m ρ c)

/-- The projection weights before the last host stretch are the launch's. -/
theorem W8_arg8 (c : Dev nD) :
    W8 (F := Ideal) m ρ c (Proc.devRef .tc main_arg8) = m ((c : Thread nD τ).loc main_arg8) :=
  (W9_arg8_eq m ρ c).symm.trans ((W10_arg8_eq m ρ c).symm.trans (W10_main_arg8 m ρ c))

/-- The last host stretch transposes the projection weights. -/
theorem W9_v45_step (c : Dev nD) :
    (W9 (F := Ideal) m ρ c (Proc.devRef .tc main_v45) : (⟨S256x256, .f32⟩ : BufTy).Contents (Elt Ideal))
      = transpose S256x256 [1, 0] (W8 (F := Ideal) m ρ c (Proc.devRef .tc main_arg8)) transposes_S256x256_S256x256_1_0 := by
  show StableHlo.after hostOps4 (W8 m ρ c) (Proc.devRef .tc main_v45) = _
  simp only [hostOps4]
  after_results

theorem W9_v45 (c : Dev nD) :
    (W9 (F := Ideal) m ρ c (Proc.devRef .tc main_v45) : (⟨S256x256, .f32⟩ : BufTy).Contents (Elt Ideal))
      = transpose S256x256 [1, 0] (m ((c : Thread nD τ).loc main_arg8)) transposes_S256x256_S256x256_1_0 :=
  (W9_v45_step m ρ c).trans (congrArg (fun x => transpose S256x256 [1, 0] x transposes_S256x256_S256x256_1_0) (W8_arg8 m ρ c))

/-- The last host stretch fills the one-column scale array with ones. -/
theorem W9_v46 (c : Dev nD) :
    (W9 (F := Ideal) m ρ c (Proc.devRef .tc main_v46) : (⟨S50000x1, .f32⟩ : BufTy).Contents (Elt Ideal))
      = broadcastInDim S50000x1 ![] bcast_S_S50000x1 (constant (F := Ideal) S_ .f32 0x3F800000#32) := by
  show StableHlo.after hostOps4 (W8 m ρ c) (Proc.devRef .tc main_v46) = _
  simp only [hostOps4]
  after_results

/-- The hidden layer as region 1 leaves it. -/
theorem W4_v31 (c : Dev nD) :
    W4 (F := Ideal) m ρ c (Proc.devRef .tc main_v31)
      = KVal.hid (m ((c : Thread nD τ).loc main_arg0)) (m ((c : Thread nD τ).loc main_arg2)) (m ((c : Thread nD τ).loc main_arg3)) (m ((c : Thread nD τ).loc main_arg9)) (m ((c : Thread nD τ).loc main_arg10)) := by
  exact ((W4_arr m ρ c 3).trans (RegionVal.arr1 (V3 m ρ) c)).trans
    (biasRelu_congr (W3_v30 m ρ c) (W3_v16 m ρ c) (W3_v17 m ρ c))

/-- The hidden layer: the second result array at the end of the run (no later segment writes it). -/
theorem W10_v31 (c : Dev nD) :
    W10 (F := Ideal) m ρ c (Proc.devRef .tc main_v31)
      = KVal.hid (m ((c : Thread nD τ).loc main_arg0)) (m ((c : Thread nD τ).loc main_arg2)) (m ((c : Thread nD τ).loc main_arg3)) (m ((c : Thread nD τ).loc main_arg9)) (m ((c : Thread nD τ).loc main_arg10)) := by
  exact (W10_v31_eq m ρ c).trans ((W9_v31_eq m ρ c).trans ((W8_v31_eq m ρ c).trans ((W7_v31_eq m ρ c).trans
    ((W6_v31_eq m ρ c).trans ((W5_v31_eq m ρ c).trans (W4_v31 m ρ c))))))

/-- The projected features: the third result array at the end of the run. -/
theorem W10_v47 (c : Dev nD) :
    W10 (F := Ideal) m ρ c (Proc.devRef .tc main_v47)
      = KVal.proj (m ((c : Thread nD τ).loc main_arg0)) (m ((c : Thread nD τ).loc main_arg8)) := by
  exact ((W10_arr m ρ c 3).trans (RegionVal.arr4 (V9 m ρ) c)).trans
    (scaleMatmul_congr (W9_arg0 m ρ c) (W9_v46 m ρ c) (W9_v45 m ρ c))

end Cert.KernelIdeal.Fold

end
-- ==== Proof.FoldZed.lean ====
/-
  The buffer contents at the boundaries of the kernel program's segments, read back to the argument arrays.
  Here: the sampled latent, written by region 3 from the aggregation of region 2's product of the hidden layer.
-/
import proofs.«108580_j23536420782574_1_alg».proof.Proof.KernelIdealFrame
import proofs.«108580_j23536420782574_1_alg».proof.Proof.KVal
import proofs.«108580_j23536420782574_1_alg».proof.Proof.Region0
import proofs.«108580_j23536420782574_1_alg».proof.Proof.Region1
import proofs.«108580_j23536420782574_1_alg».proof.Proof.Region2
import proofs.«108580_j23536420782574_1_alg».proof.Proof.Region3
import proofs.«108580_j23536420782574_1_alg».proof.Proof.Region4
import proofs.«108580_j23536420782574_1_alg».proof.Proof.FoldHid
import Idealize.ShloMosaic.Lib.StableHlo.Run

set_option maxRecDepth 16384

noncomputable section

namespace Cert.KernelIdeal.Fold

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A buffer that no operation of a host stretch writes holds after the stretch what it held before. -/
local macro "host_keeps" h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

namespace Zed

/-! ## What the first host stretch leaves: the two degree factors as columns, the two output biases as rows -/

/-- The out-degree factor: the source endpoints counted, clamped at one, to the power -1/2, as a column. -/
theorem W1_v15 (c : Dev nD) :
    W1 (F := Ideal) m ρ c (Proc.devRef .tc main_v15) = KVal.asCol (KVal.normOf (m ((c : Thread nD τ).loc main_arg9))) := by
  show StableHlo.after hostOps0 (W0 m ρ c) (Proc.devRef .tc main_v15) = _
  simp only [hostOps0]
  after_results
  rfl

/-- The in-degree factor: the same of the destination endpoints. -/
theorem W1_v16 (c : Dev nD) :
    W1 (F := Ideal) m ρ c (Proc.devRef .tc main_v16) = KVal.asCol (KVal.normOf (m ((c : Thread nD τ).loc main_arg10))) := by
  show StableHlo.after hostOps0 (W0 m ρ c) (Proc.devRef .tc main_v16) = _
  simp only [hostOps0]
  after_results
  rfl

/-- The mean's bias as a row. -/
theorem W1_v18 (c : Dev nD) :
    W1 (F := Ideal) m ρ c (Proc.devRef .tc main_v18) = KVal.asRow128 (m ((c : Thread nD τ).loc main_arg5)) := by
  show StableHlo.after hostOps0 (W0 m ρ c) (Proc.devRef .tc main_v18) = _
  simp only [hostOps0]
  after_results
  rfl

/-- The log-deviation's bias as a row. -/
theorem W1_v19 (c : Dev nD) :
    W1 (F := Ideal) m ρ c (Proc.devRef .tc main_v19) = KVal.asRow128 (m ((c : Thread nD τ).loc main_arg7)) := by
  show StableHlo.after hostOps0 (W0 m ρ c) (Proc.devRef .tc main_v19) = _
  simp only [hostOps0]
  after_results
  rfl

/-! ## Buffers carried unchanged to the segment that reads them: a host stretch that does not write the buffer, a
    region of which it is no array or an input array, leaves it as it was -/

/-- The mean's weight matrix when the second host stretch concatenates it: as launched. -/
theorem W4_arg4 (c : Dev nD) :
    W4 (F := Ideal) m ρ c (Proc.devRef .tc main_arg4) = m ((c : Thread nD τ).loc main_arg4) :=
  calc W4 (F := Ideal) m ρ c (Proc.devRef .tc main_arg4)
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

/-- The log-deviation's weight matrix when the second host stretch concatenates it: as launched. -/
theorem W4_arg6 (c : Dev nD) :
    W4 (F := Ideal) m ρ c (Proc.devRef .tc main_arg6) = m ((c : Thread nD τ).loc main_arg6) :=
  calc W4 (F := Ideal) m ρ c (Proc.devRef .tc main_arg6)
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- The source endpoints when the second aggregation reads them: as launched. -/
theorem W6_arg9 (c : Dev nD) :
    W6 (F := Ideal) m ρ c (Proc.devRef .tc main_arg9) = m ((c : Thread nD τ).loc main_arg9) :=
  calc W6 (F := Ideal) m ρ c (Proc.devRef .tc main_arg9)
    _ = W5 m ρ c (Proc.devRef .tc main_arg9) := W6_of_ne m ρ c main_arg9 (by decide)
    _ = W4 m ρ c (Proc.devRef .tc main_arg9) := by host_keeps hostOps2
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

/-- The destination endpoints when the second aggregation reads them: as launched. -/
theorem W6_arg10 (c : Dev nD) :
    W6 (F := Ideal) m ρ c (Proc.devRef .tc main_arg10) = m ((c : Thread nD τ).loc main_arg10) :=
  calc W6 (F := Ideal) m ρ c (Proc.devRef .tc main_arg10)
    _ = W5 m ρ c (Proc.devRef .tc main_arg10) := W6_of_ne m ρ c main_arg10 (by decide)
    _ = W4 m ρ c (Proc.devRef .tc main_arg10) := by host_keeps hostOps2
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

/-- The noise at region 3's entry: as launched. -/
theorem W7_arg1 (c : Dev nD) :
    W7 (F := Ideal) m ρ c (Proc.devRef .tc main_arg1) = m ((c : Thread nD τ).loc main_arg1) :=
  calc W7 (F := Ideal) m ρ c (Proc.devRef .tc main_arg1)
    _ = W6 m ρ c (Proc.devRef .tc main_arg1) := by host_keeps hostOps3
    _ = W5 m ρ c (Proc.devRef .tc main_arg1) := W6_of_ne m ρ c main_arg1 (by decide)
    _ = W4 m ρ c (Proc.devRef .tc main_arg1) := by host_keeps hostOps2
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl

/-- The out-degree factor at region 2's entry (region 0 only reads it). -/
theorem W5_v15 (c : Dev nD) :
    W5 (F := Ideal) m ρ c (Proc.devRef .tc main_v15) = KVal.asCol (KVal.normOf (m ((c : Thread nD τ).loc main_arg9))) :=
  calc W5 (F := Ideal) m ρ c (Proc.devRef .tc main_v15)
    _ = W4 m ρ c (Proc.devRef .tc main_v15) := by host_keeps hostOps2
    _ = W3 m ρ c (Proc.devRef .tc main_v15) := W4_of_ne m ρ c main_v15 (by decide)
    _ = W2 m ρ c (Proc.devRef .tc main_v15) := by host_keeps hostOps1
    _ = W1 m ρ c (Proc.devRef .tc main_v15) := (W2_arr m ρ c 1).trans (((dat0 (V1 m ρ) c).arrAt_in 1 rfl _).trans (A_eq0 (V1 m ρ) c 1))
    _ = KVal.asCol (KVal.normOf (m ((c : Thread nD τ).loc main_arg9))) := W1_v15 m ρ c

/-- The in-degree factor at region 3's entry (region 1 only reads it). -/
theorem W7_v16 (c : Dev nD) :
    W7 (F := Ideal) m ρ c (Proc.devRef .tc main_v16) = KVal.asCol (KVal.normOf (m ((c : Thread nD τ).loc main_arg10))) :=
  calc W7 (F := Ideal) m ρ c (Proc.devRef .tc main_v16)
    _ = W6 m ρ c (Proc.devRef .tc main_v16) := by host_keeps hostOps3
    _ = W5 m ρ c (Proc.devRef .tc main_v16) := W6_of_ne m ρ c main_v16 (by decide)
    _ = W4 m ρ c (Proc.devRef .tc main_v16) := by host_keeps hostOps2
    _ = W3 m ρ c (Proc.devRef .tc main_v16) := (W4_arr m ρ c 1).trans (((dat1 (V3 m ρ) c).arrAt_in 1 rfl _).trans (A_eq1 (V3 m ρ) c 1))
    _ = W2 m ρ c (Proc.devRef .tc main_v16) := by host_keeps hostOps1
    _ = W1 m ρ c (Proc.devRef .tc main_v16) := W2_of_ne m ρ c main_v16 (by decide)
    _ = KVal.asCol (KVal.normOf (m ((c : Thread nD τ).loc main_arg10))) := W1_v16 m ρ c

/-- The mean's bias row at region 3's entry. -/
theorem W7_v18 (c : Dev nD) :
    W7 (F := Ideal) m ρ c (Proc.devRef .tc main_v18) = KVal.asRow128 (m ((c : Thread nD τ).loc main_arg5)) :=
  calc W7 (F := Ideal) m ρ c (Proc.devRef .tc main_v18)
    _ = W6 m ρ c (Proc.devRef .tc main_v18) := by host_keeps hostOps3
    _ = W5 m ρ c (Proc.devRef .tc main_v18) := W6_of_ne m ρ c main_v18 (by decide)
    _ = W4 m ρ c (Proc.devRef .tc main_v18) := by host_keeps hostOps2
    _ = W3 m ρ c (Proc.devRef .tc main_v18) := W4_of_ne m ρ c main_v18 (by decide)
    _ = W2 m ρ c (Proc.devRef .tc main_v18) := by host_keeps hostOps1
    _ = W1 m ρ c (Proc.devRef .tc main_v18) := W2_of_ne m ρ c main_v18 (by decide)
    _ = KVal.asRow128 (m ((c : Thread nD τ).loc main_arg5)) := W1_v18 m ρ c

/-- The log-deviation's bias row at region 3's entry. -/
theorem W7_v19 (c : Dev nD) :
    W7 (F := Ideal) m ρ c (Proc.devRef .tc main_v19) = KVal.asRow128 (m ((c : Thread nD τ).loc main_arg7)) :=
  calc W7 (F := Ideal) m ρ c (Proc.devRef .tc main_v19)
    _ = W6 m ρ c (Proc.devRef .tc main_v19) := by host_keeps hostOps3
    _ = W5 m ρ c (Proc.devRef .tc main_v19) := W6_of_ne m ρ c main_v19 (by decide)
    _ = W4 m ρ c (Proc.devRef .tc main_v19) := by host_keeps hostOps2
    _ = W3 m ρ c (Proc.devRef .tc main_v19) := W4_of_ne m ρ c main_v19 (by decide)
    _ = W2 m ρ c (Proc.devRef .tc main_v19) := by host_keeps hostOps1
    _ = W1 m ρ c (Proc.devRef .tc main_v19) := W2_of_ne m ρ c main_v19 (by decide)
    _ = KVal.asRow128 (m ((c : Thread nD τ).loc main_arg7)) := W1_v19 m ρ c

/-! ## Region 2: the scaled hidden layer times the two output weight matrices side by side -/

/-- The hidden layer at region 2's entry: the second host stretch does not write it. -/
theorem W5_v31 (c : Dev nD) :
    W5 (F := Ideal) m ρ c (Proc.devRef .tc main_v31) = KVal.hid (m ((c : Thread nD τ).loc main_arg0)) (m ((c : Thread nD τ).loc main_arg2)) (m ((c : Thread nD τ).loc main_arg3)) (m ((c : Thread nD τ).loc main_arg9)) (m ((c : Thread nD τ).loc main_arg10)) :=
  calc W5 (F := Ideal) m ρ c (Proc.devRef .tc main_v31)
    _ = W4 m ρ c (Proc.devRef .tc main_v31) := by host_keeps hostOps2
    _ = KVal.hid (m ((c : Thread nD τ).loc main_arg0)) (m ((c : Thread nD τ).loc main_arg2)) (m ((c : Thread nD τ).loc main_arg3)) (m ((c : Thread nD τ).loc main_arg9)) (m ((c : Thread nD τ).loc main_arg10)) := W4_v31 m ρ c

/-- The second host stretch's one operation: the two weight matrices concatenated along the columns. -/
theorem W5_v32 (c : Dev nD) :
    W5 (F := Ideal) m ρ c (Proc.devRef .tc main_v32) = KVal.w23 (m ((c : Thread nD τ).loc main_arg4)) (m ((c : Thread nD τ).loc main_arg6)) := by
  have e : W5 (F := Ideal) m ρ c (Proc.devRef .tc main_v32)
      = KVal.w23 (W4 m ρ c (Proc.devRef .tc main_arg4)) (W4 m ρ c (Proc.devRef .tc main_arg6)) := by
    show StableHlo.after hostOps2 (W4 m ρ c) (Proc.devRef .tc main_v32) = _
    simp only [hostOps2]
    after_results
    rfl
  rw [e, W4_arg4 m ρ c, W4_arg6 m ρ c]

/-- Region 2's output array. -/
theorem W6_v33 (c : Dev nD) :
    W6 (F := Ideal) m ρ c (Proc.devRef .tc main_v33) = Spec.scaleMatmul (KVal.hid (m ((c : Thread nD τ).loc main_arg0)) (m ((c : Thread nD τ).loc main_arg2)) (m ((c : Thread nD τ).loc main_arg3)) (m ((c : Thread nD τ).loc main_arg9)) (m ((c : Thread nD τ).loc main_arg10))) (KVal.asCol (KVal.normOf (m ((c : Thread nD τ).loc main_arg9)))) (KVal.w23 (m ((c : Thread nD τ).loc main_arg4)) (m ((c : Thread nD τ).loc main_arg6))) := by
  refine (W6_arr m ρ c 3).trans ((RegionVal.arr2 (V5 m ρ) c).trans ?_)
  show Spec.scaleMatmul (W5 m ρ c (Proc.devRef .tc main_v31)) (W5 m ρ c (Proc.devRef .tc main_v15)) (W5 m ρ c (Proc.devRef .tc main_v32)) = _
  rw [W5_v31 m ρ c, W5_v15 m ρ c, W5_v32 m ρ c]

/-! ## The second aggregation over the edges, and region 3 -/

/-- The fourth host stretch: the rows of region 2's product gathered at the source endpoints and added into a zero
    array at the destination endpoints. -/
theorem W7_v43 (c : Dev nD) :
    W7 (F := Ideal) m ρ c (Proc.devRef .tc main_v43) = KVal.aggregate (Spec.scaleMatmul (KVal.hid (m ((c : Thread nD τ).loc main_arg0)) (m ((c : Thread nD τ).loc main_arg2)) (m ((c : Thread nD τ).loc main_arg3)) (m ((c : Thread nD τ).loc main_arg9)) (m ((c : Thread nD τ).loc main_arg10))) (KVal.asCol (KVal.normOf (m ((c : Thread nD τ).loc main_arg9)))) (KVal.w23 (m ((c : Thread nD τ).loc main_arg4)) (m ((c : Thread nD τ).loc main_arg6)))) (m ((c : Thread nD τ).loc main_arg9)) (m ((c : Thread nD τ).loc main_arg10)) := by
  have e : W7 (F := Ideal) m ρ c (Proc.devRef .tc main_v43)
      = KVal.aggregate (W6 m ρ c (Proc.devRef .tc main_v33)) (W6 m ρ c (Proc.devRef .tc main_arg9)) (W6 m ρ c (Proc.devRef .tc main_arg10)) := by
    show StableHlo.after hostOps3 (W6 m ρ c) (Proc.devRef .tc main_v43) = _
    simp only [hostOps3]
    after_results
    rfl
  rw [e, W6_v33 m ρ c, W6_arg9 m ρ c, W6_arg10 m ρ c]

/-- Region 3's output array. -/
theorem W8_v44 (c : Dev nD) :
    W8 (F := Ideal) m ρ c (Proc.devRef .tc main_v44)
      = KVal.zed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) := by
  refine (W8_arr m ρ c 5).trans ((RegionVal.arr3 (V7 m ρ) c).trans ?_)
  show Spec.reparam (W7 m ρ c (Proc.devRef .tc main_v43)) (W7 m ρ c (Proc.devRef .tc main_v16)) (W7 m ρ c (Proc.devRef .tc main_v18))
      (W7 m ρ c (Proc.devRef .tc main_v19)) (W7 m ρ c (Proc.devRef .tc main_arg1)) = _
  rw [W7_v43 m ρ c, W7_v16 m ρ c, W7_v18 m ρ c, W7_v19 m ρ c, W7_arg1 m ρ c]
  rfl

end Zed

/-- The sampled latent: the first result array at the end of the run. -/
theorem W10_v44 (c : Dev nD) :
    W10 (F := Ideal) m ρ c (Proc.devRef .tc main_v44)
      = KVal.zed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) :=
  calc W10 (F := Ideal) m ρ c (Proc.devRef .tc main_v44)
    _ = W9 m ρ c (Proc.devRef .tc main_v44) := W10_of_ne m ρ c main_v44 (by decide)
    _ = W8 m ρ c (Proc.devRef .tc main_v44) := by host_keeps hostOps4
    _ = _ := Zed.W8_v44 m ρ c

end Cert.KernelIdeal.Fold

end
-- ==== Proof.RowOps.lean ====
/-
  A gather of whole rows and a scatter-add of whole rows, read at an index, on the extended reals.

  `rowGather N E C`: the operand is `[N, C]`, the start indices `[E, 1]`, the result `[E, C]`; result row `e` is the
  operand's row at the start index `idx[e, 0]`, read signed and clamped into `[0, N - 1]`.
  `rowScatter N E C`: the operand is `[N, C]`, the scatter indices `[E, 1]`, the updates `[E, C]`; update row `e` is
  added into the operand's row `idx[e, 0]` (read signed, NOT clamped; a row outside the operand is dropped).
  At an entry `(n, c)` the accumulating scatter is the operand's entry plus the sum, over the edges `e` whose index
  is `n`, of the update's entry `(e, c)`: the column is carried through unchanged. So the scatter of a gather
  commutes with any re-labelling of columns (`scatterAdd_gather_cols`): what a 256-column aggregation holds in
  column `f j` is what the 128-column aggregation of the matching columns holds in column `j`.
-/
import Idealize.ShloMosaic.PureOps.Ideal
import Idealize.ShloMosaic.Lib.ValueIdx

noncomputable section

open scoped BigOperators

namespace Cert.RowOps

open Idealize.ShloMosaic Idealize.ShloMosaic.ValueIdx

/-- The dimension numbers of a gather of whole rows. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a scatter of whole rows. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row a start index selects: read signed, clamped into `[0, N - 1]`. -/
def clampRow {w : Nat} (N : Nat) (hN : 0 < N) (b : BitVec w) : Fin N := ⟨min b.toInt.toNat (N - 1), by omega⟩

/-- THE ROW GATHER READ AT `(e, c)`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    -- axis 0 is collapsed and in the start index map: the clamped start, no batching and no offset coordinate
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the one kept axis and is not in the start index map: start 0, no batching, offset coordinate `c`
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show (1 : Fin 2) ∉ (rowGather N E C wf).startIndexMap from by simp)]
    have hk : (1 : Fin 2) ∈ (rowGather N E C wf).sKept :=
      (GatherDims.mem_sKept _ _).mpr ⟨by simp, List.not_mem_nil⟩
    have hidx : List.idxOf (1 : Fin 2) (rowGather N E C wf).sKept = 0 := by rfl
    have hrd : ∀ (k : Nat) (hk' : k < (rowGather N E C wf).offsetDims.length), k = 0 →
        ((ix2 e c) ((rowGather N E C wf).offsetDims[k])).val = c.val := by
      intro k hk' h0; subst h0; rfl
    rw [hst]
    unfold GatherDims.offCoord
    rw [dif_pos hk]
    simp only [Nat.zero_add]
    exact hrd _ _ hidx

/-- The row scatter's start on axis 0 for update index `(e, c')`: the scatter index `idx[e, 0]`, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 is not named by the scatter-dims-to-operand-dims map: its start is `0`. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatter N E C wf).start (ix2 e c') idx 1 = 0 := by
  unfold ScatterDims.start
  rw [dif_neg (show (1 : Fin 2) ∉ (rowScatter N E C wf).scatterDimsToOperandDims from by simp)]

/-- Axis 0 is an inserted window axis: its window coordinate is `0`. -/
theorem rowScatter_window_zero {N E C : Nat}
    (wf : ScatterDims.WF ⟨2, ![N, C]⟩ ⟨2, ![E, 1]⟩ ⟨2, ![E, C]⟩ [1] [0] [0] 1) (e : Fin E) (c' : Fin C) :
    (rowScatter N E C wf).window (ix2 e c') 0 = 0 := by
  unfold ScatterDims.window
  rw [dif_neg (show (0 : Fin 2) ∉ (rowScatter N E C wf).sKept from by
    simp [ScatterDims.sKept, Shape.kept, List.mem_filter])]

/-- Axis 1 is the one kept axis: its window coordinate is the update's column `c'`. -/
theorem rowScatter_window_one {N E C : Nat}
    (wf : ScatterDims.WF ⟨2, ![N, C]⟩ ⟨2, ![E, 1]⟩ ⟨2, ![E, C]⟩ [1] [0] [0] 1) (e : Fin E) (c' : Fin C) :
    (rowScatter N E C wf).window (ix2 e c') 1 = c'.val := by
  have hk : (1 : Fin 2) ∈ (rowScatter N E C wf).sKept := by
    simp [ScatterDims.sKept, Shape.kept, List.mem_filter, List.mem_finRange]
  have hidx : List.idxOf (1 : Fin 2) (rowScatter N E C wf).sKept = 0 := by rfl
  have hrd : ∀ (k : Nat) (hk' : k < (rowScatter N E C wf).updateWindowDims.length), k = 0 →
      ((ix2 e c') ((rowScatter N E C wf).updateWindowDims[k])).val = c'.val := by
    intro k hk' h0; subst h0; rfl
  unfold ScatterDims.window
  rw [dif_pos hk]
  exact hrd _ _ hidx

/-- Update `(e, c')` lands at operand entry `(n, c)` exactly when its scatter index, read signed, is `n` and its
    column is `c`. -/
theorem resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatter N E C wf).resultIdx? (ix2 e c') idx = some (ix2 n c)
      ↔ (idx (ix2 e (0 : Fin 1))).toInt = (n.val : Int) ∧ c' = c := by
  have h0 : (rowScatter N E C wf).start (ix2 e c') idx 0 + (rowScatter N E C wf).window (ix2 e c') 0
      = (idx (ix2 e (0 : Fin 1))).toInt := by
    rw [rowScatter_start_zero, rowScatter_window_zero]; simp
  have h1 : (rowScatter N E C wf).start (ix2 e c') idx 1 + (rowScatter N E C wf).window (ix2 e c') 1
      = (c'.val : Int) := by
    rw [rowScatter_start_one, rowScatter_window_one]; simp
  unfold ScatterDims.resultIdx?
  split
  · rename_i h
    rw [Option.some.injEq]
    constructor
    · intro hf
      have e0 := congrArg Fin.val (congrFun hf 0)
      have e1 := congrArg Fin.val (congrFun hf 1)
      have p0 := (h 0).1
      simp only [h0] at e0 p0
      simp only [h1] at e1
      refine ⟨?_, Fin.ext ?_⟩
      · have : ((idx (ix2 e (0 : Fin 1))).toInt).toNat = n.val := e0
        omega
      · have : ((c'.val : Int)).toNat = c.val := e1
        omega
    · rintro ⟨hn, rfl⟩
      funext a
      refine Fin.ext ?_
      match a with
      | ⟨0, _⟩ =>
        show ((rowScatter N E C wf).start (ix2 e c') idx 0 + (rowScatter N E C wf).window (ix2 e c') 0).toNat = n.val
        rw [h0, hn]; simp
      | ⟨1, _⟩ =>
        show ((rowScatter N E C wf).start (ix2 e c') idx 1 + (rowScatter N E C wf).window (ix2 e c') 1).toNat = c'.val
        rw [h1]; simp
  · rename_i h
    constructor
    · intro hf; exact absurd hf (by simp)
    · rintro ⟨hn, rfl⟩
      exfalso
      apply h
      intro a
      match a with
      | ⟨0, _⟩ =>
        show 0 ≤ (rowScatter N E C wf).start (ix2 e c') idx 0 + (rowScatter N E C wf).window (ix2 e c') 0
          ∧ (rowScatter N E C wf).start (ix2 e c') idx 0 + (rowScatter N E C wf).window (ix2 e c') 0 < (N : Int)
        rw [h0, hn]
        exact ⟨by omega, by have := n.isLt; omega⟩
      | ⟨1, _⟩ =>
        show 0 ≤ (rowScatter N E C wf).start (ix2 e c') idx 1 + (rowScatter N E C wf).window (ix2 e c') 1
          ∧ (rowScatter N E C wf).start (ix2 e c') idx 1 + (rowScatter N E C wf).window (ix2 e c') 1 < (C : Int)
        rw [h1]
        exact ⟨by omega, by have := c'.isLt; omega⟩

/-- THE ROW SCATTER-ADD READ AT `(n, c)`, on the extended reals. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  -- the sum over the update indices that land at `(n, c)`, as a double sum over rows and columns of an `if`
  rw [Finset.sum_filter, sum_idx2, Finset.sum_filter]
  refine Finset.sum_congr rfl fun e _ => ?_
  by_cases he : (idx (ix2 e (0 : Fin 1))).toInt = (n.val : Int)
  · -- row `e` lands in row `n`: of its columns only `c` lands at `(n, c)`
    rw [if_pos he, Finset.sum_eq_single c]
    · rw [if_pos ((resultIdx?_eq_some_iff wf idx e c n c).mpr ⟨he, rfl⟩)]
    · intro b _ hb
      rw [if_neg]
      intro h
      exact hb ((resultIdx?_eq_some_iff wf idx e b n c).mp h).2
    · intro h; exact absurd (Finset.mem_univ c) h
  · -- row `e` lands elsewhere (or nowhere): none of its columns contributes
    rw [if_neg he]
    refine Finset.sum_eq_zero fun b _ => ?_
    rw [if_neg]
    intro h
    exact he ((resultIdx?_eq_some_iff wf idx e b n c).mp h).1

/-- The scatter-add of a row gather, through a re-labelling `f` of columns: if `x` in column `f j` is `y` in column
    `j`, and the operand `z` in column `f j` is `z'` in column `j`, the `C`-column aggregation in column `f j` is the
    `C'`-column aggregation in column `j`. -/
theorem scatterAdd_gather_cols {N E C C' w w' : Nat} (hN : 0 < N) (f : Fin C' → Fin C)
    (wfg : GatherDims.WF ⟨2, ![N, C]⟩ ⟨2, ![E, 1]⟩ ⟨2, ![E, C]⟩ [1] [0] [] [0] [] 1 ![1, C])
    (wfg' : GatherDims.WF ⟨2, ![N, C']⟩ ⟨2, ![E, 1]⟩ ⟨2, ![E, C']⟩ [1] [0] [] [0] [] 1 ![1, C'])
    (wfs : ScatterDims.WF ⟨2, ![N, C]⟩ ⟨2, ![E, 1]⟩ ⟨2, ![E, C]⟩ [1] [0] [0] 1)
    (wfs' : ScatterDims.WF ⟨2, ![N, C']⟩ ⟨2, ![E, 1]⟩ ⟨2, ![E, C']⟩ [1] [0] [0] 1)
    (x z : (⟨2, ![N, C]⟩ : Shape).Idx → EReal) (y z' : (⟨2, ![N, C']⟩ : Shape).Idx → EReal)
    (gidx : IVec ⟨2, ![E, 1]⟩ w) (sidx : IVec ⟨2, ![E, 1]⟩ w')
    (hxy : ∀ (n : Fin N) (j : Fin C'), x (ix2 n (f j)) = y (ix2 n j))
    (hz : ∀ (n : Fin N) (j : Fin C'), z (ix2 n (f j)) = z' (ix2 n j))
    (n : Fin N) (j : Fin C') :
    Ideal.hostScatterAdd (rowScatter N E C wfs) z sidx (Host.gather (rowGather N E C wfg) x gidx) (ix2 n (f j))
      = Ideal.hostScatterAdd (rowScatter N E C' wfs') z' sidx (Host.gather (rowGather N E C' wfg') y gidx) (ix2 n j) := by
  rw [rowScatterAdd_apply, rowScatterAdd_apply, hz]
  congr 1
  refine Finset.sum_congr rfl fun e _ => ?_
  rw [rowGather_apply hN, rowGather_apply hN, hxy]

end Cert.RowOps

end
-- ==== Proof.BridgeHid.lean ====
/-
  The kernel program's degree factors, hidden layer and projection are the reference program's, on the extended
  reals. Both programs count degrees and aggregate over the edges with the same operations; the kernel's scaled
  matrix product `∑ k, (x n k · s n) · w k j` is the reference's `(x · broadcast s) W` read as a sum over the
  contracted axis; the bias, the clamp at zero are entry by entry; the projection's rows are scaled by one.
-/
import proofs.«108580_j23536420782574_1_alg».proof.Proof.Gen.KernelIdeal
import proofs.«108580_j23536420782574_1_alg».proof.Proof.KVal
import proofs.«108580_j23536420782574_1_alg».proof.Proof.RowOps
import proofs.«108580_j23536420782574_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.Bridge

open Idealize.ShloMosaic Idealize.ShloMosaic.TcCoe Idealize.ShloMosaic.ValueIdx
open Cert.KernelIdeal.KVal

/-- A length-`a` vector viewed as one column reads, at `(i, u)`, the vector at `i`: both sit at row-major position `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The one-column view of a vector at `(n, 0)` is the vector at `n`. -/
theorem asCol_apply (v : (⟨Cert.KernelIdeal.S50000, .f32⟩ : BufTy).Contents (Elt Ideal)) (n : Fin 50000) :
    asCol v (ix2 n (0 : Fin 1)) = v (ix1 n) := by
  unfold asCol
  exact shapeCast_col_apply v _ n 0

/-- The one-row view of a vector at `(0, j)` is the vector at `j`. -/
theorem asRow256_apply (v : (⟨Cert.KernelIdeal.S256, .f32⟩ : BufTy).Contents (Elt Ideal)) (j : Fin 256) :
    asRow256 v (ix2 (0 : Fin 1) j) = v (ix1 j) := by
  unfold asRow256
  exact shapeCast_a_1a_apply v _ 0 j

/-- The out-degree factor is the reference's. -/
theorem normOf_eq_v10 (x9 : (⟨Cert.KernelIdeal.S800000, .i32⟩ : BufTy).Contents (Elt Ideal)) : normOf x9 = Cert.ReferenceIdeal.Read.val_main_v10 (F := Ideal) x9 := by
  rfl

/-- The in-degree factor is the reference's. -/
theorem normOf_eq_v14 (x10 : (⟨Cert.KernelIdeal.S800000, .i32⟩ : BufTy).Contents (Elt Ideal)) : normOf x10 = Cert.ReferenceIdeal.Read.val_main_v14 (F := Ideal) x10 := by
  rfl

/-- The first layer's product: row `n` of the features scaled by the out-degree factor of `n`, times `W1`. The
    reference scales by the factor broadcast along the row and contracts over `k`; entry by entry the summands agree. -/
theorem x1_eq (x0 : (⟨Cert.KernelIdeal.S50000x256, .f32⟩ : BufTy).Contents (Elt Ideal)) (x2 : (⟨Cert.KernelIdeal.S256x256, .f32⟩ : BufTy).Contents (Elt Ideal)) (x9 : (⟨Cert.KernelIdeal.S800000, .i32⟩ : BufTy).Contents (Elt Ideal)) :
    x1 x0 x2 x9 = Cert.ReferenceIdeal.Read.val_main_v18 (F := Ideal) x0 x2 x9 := by
  funext i
  obtain ⟨n, j, rfl⟩ : ∃ (n : Fin 50000) (j : Fin 256), i = ix2 n j := ⟨i 0, i 1, eq_ix2 i⟩
  unfold x1
  rw [Spec.scaleMatmul_ix2, Cert.ReferenceIdeal.Read.val_main_v18_apply]
  unfold Spec.scaleMatmulAt
  refine Finset.sum_congr rfl fun k _ => ?_
  have hl : Cert.ReferenceIdeal.Read.lidx_main_v18 (ix2 n j) k = ix2 n k :=
    funext fun a => by match a with | ⟨0, _⟩ => rfl | ⟨1, _⟩ => rfl
  have hr : Cert.ReferenceIdeal.Read.ridx_main_v18 (ix2 n j) k = ix2 k j :=
    funext fun a => by match a with | ⟨0, _⟩ => rfl | ⟨1, _⟩ => rfl
  have hc : Cert.ReferenceIdeal.Read.idx_main_v15 (Cert.ReferenceIdeal.Read.idx_main_v16 (ix2 n k)) = ix1 n :=
    funext fun a => by match a with | ⟨0, _⟩ => rfl
  rw [hl, hr, Cert.ReferenceIdeal.Read.val_main_v17_apply, Cert.ReferenceIdeal.Read.val_main_v16_apply,
    Cert.ReferenceIdeal.Read.val_main_v15_apply, hc, asCol_apply, normOf_eq_v10]
  rfl

/-- The aggregation of the reference's first product over the edges is the reference's scatter of its gather. -/
theorem aggregate_v18_eq (x0 : (⟨Cert.KernelIdeal.S50000x256, .f32⟩ : BufTy).Contents (Elt Ideal)) (x2 : (⟨Cert.KernelIdeal.S256x256, .f32⟩ : BufTy).Contents (Elt Ideal)) (x9 x10 : (⟨Cert.KernelIdeal.S800000, .i32⟩ : BufTy).Contents (Elt Ideal)) :
    aggregate (Cert.ReferenceIdeal.Read.val_main_v18 (F := Ideal) x0 x2 x9) x9 x10 = Cert.ReferenceIdeal.Read.val_main_v28 (F := Ideal) x0 x2 x9 x10 := by
  rfl

/-- The hidden layer. -/
theorem hid_eq (x0 : (⟨Cert.KernelIdeal.S50000x256, .f32⟩ : BufTy).Contents (Elt Ideal)) (x2 : (⟨Cert.KernelIdeal.S256x256, .f32⟩ : BufTy).Contents (Elt Ideal)) (x3 : (⟨Cert.KernelIdeal.S256, .f32⟩ : BufTy).Contents (Elt Ideal)) (x9 x10 : (⟨Cert.KernelIdeal.S800000, .i32⟩ : BufTy).Contents (Elt Ideal)) :
    hid x0 x2 x3 x9 x10 = Cert.ReferenceIdeal.Read.val_main_v35 (F := Ideal) x0 x2 x3 x9 x10 := by
  funext i
  obtain ⟨n, j, rfl⟩ : ∃ (n : Fin 50000) (j : Fin 256), i = ix2 n j := ⟨i 0, i 1, eq_ix2 i⟩
  unfold hid
  rw [Spec.biasRelu_ix2, x1_eq, aggregate_v18_eq]
  unfold Spec.biasReluAt
  have hs : Cert.ReferenceIdeal.Read.idx_main_v29 (Cert.ReferenceIdeal.Read.idx_main_v30 (ix2 n j)) = ix1 n :=
    funext fun a => by match a with | ⟨0, _⟩ => rfl
  have hb : Cert.ReferenceIdeal.Read.idx_main_v32 (Cert.ReferenceIdeal.Read.idx_main_v33 (ix2 n j)) = ix1 j :=
    funext fun a => by match a with | ⟨0, _⟩ => rfl
  rw [Cert.ReferenceIdeal.Read.val_main_v35_apply, Cert.ReferenceIdeal.Read.val_main_v34_apply,
    Cert.ReferenceIdeal.Read.val_main_v31_apply, Cert.ReferenceIdeal.Read.val_main_v30_apply,
    Cert.ReferenceIdeal.Read.val_main_v29_apply, Cert.ReferenceIdeal.Read.val_main_v33_apply,
    Cert.ReferenceIdeal.Read.val_main_v32_apply, Cert.ReferenceIdeal.Read.val_main_call0_v0_apply,
    Cert.ReferenceIdeal.Read.val_main_call0_cst_apply, hs, hb, asCol_apply, asRow256_apply, normOf_eq_v14]
  simp only [Ideal.maximumf_def, Ideal.addf_def, Ideal.mulf_def, Ideal.ofBits_def, Ideal.ofBits_zero_f32]

/-- The projected features. -/
theorem proj_eq (x0 : (⟨Cert.KernelIdeal.S50000x256, .f32⟩ : BufTy).Contents (Elt Ideal)) (x8 : (⟨Cert.KernelIdeal.S256x256, .f32⟩ : BufTy).Contents (Elt Ideal)) :
    proj x0 x8 = Cert.ReferenceIdeal.Read.val_main_v81 (F := Ideal) x0 x8 := by
  funext i
  obtain ⟨n, j, rfl⟩ : ∃ (n : Fin 50000) (j : Fin 256), i = ix2 n j := ⟨i 0, i 1, eq_ix2 i⟩
  unfold proj
  rw [Spec.scaleMatmul_ix2, Cert.ReferenceIdeal.Read.val_main_v81_apply]
  unfold Spec.scaleMatmulAt
  refine Finset.sum_congr rfl fun k _ => ?_
  have hl : Cert.ReferenceIdeal.Read.lidx_main_v81 (ix2 n j) k = ix2 n k :=
    funext fun a => by match a with | ⟨0, _⟩ => rfl | ⟨1, _⟩ => rfl
  have hr : Cert.ReferenceIdeal.Read.ridx_main_v81 (ix2 n j) k = ix2 k j :=
    funext fun a => by match a with | ⟨0, _⟩ => rfl | ⟨1, _⟩ => rfl
  rw [hl, hr, broadcastInDim_scalar_apply, constant_apply, Ideal.ofBits_one_f32, mul_one]
  rfl

end Cert.Bridge

end
-- ==== Proof.BridgeZed.lean ====
/-
  The kernel program's sampled latent is the reference program's, on the extended reals. The kernel multiplies the
  scaled hidden layer by `[W2 | W3]` once and aggregates 256 columns over the edges; the reference multiplies by `W2`
  and by `W3` and aggregates 128 columns twice. Column `j` of the product with `[W2 | W3]` is the `W2` product's column
  `j`, column `128 + j` the `W3` product's column `j`, and the aggregation acts on each column by itself; the rest is
  entry by entry.
-/
import proofs.«108580_j23536420782574_1_alg».proof.Proof.Gen.KernelIdeal
import proofs.«108580_j23536420782574_1_alg».proof.Proof.KVal
import proofs.«108580_j23536420782574_1_alg».proof.Proof.RowOps
import proofs.«108580_j23536420782574_1_alg».proof.Proof.Gen.ReferenceIdeal.Read
import proofs.«108580_j23536420782574_1_alg».proof.Proof.BridgeHid
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.TcCoe Idealize.ShloMosaic.ValueIdx
open Cert.KernelIdeal.KVal

namespace Zed

/-! ## Layout operations of the kernel program at an index -/

/-- A vector cast to one column reads, at `(i, 0)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The one-column form of a per-node factor at `(n, 0)` is the factor at `n`. -/
theorem asCol_apply (v : (⟨Cert.KernelIdeal.S50000, .f32⟩ : BufTy).Contents (Elt Ideal)) (n : Fin 50000) :
    asCol v (ix2 n (0 : Fin 1)) = v (ix1 n) := by
  unfold asCol
  exact shapeCast_a_a1_apply v _ n 0

/-- The one-row form of a bias at `(0, j)` is the bias at `j`. -/
theorem asRow128_apply (v : (⟨Cert.KernelIdeal.S128, .f32⟩ : BufTy).Contents (Elt Ideal)) (j : Fin 128) :
    asRow128 v (ix2 (0 : Fin 1) j) = v (ix1 j) := by
  unfold asRow128
  exact shapeCast_a_1a_apply v _ 0 j

/-- Column `j` of `[W2 | W3]` is column `j` of `W2`. -/
theorem w23_lo (x4 x6 : (⟨Cert.KernelIdeal.S256x128, .f32⟩ : BufTy).Contents (Elt Ideal)) (k : Fin 256) (j : Fin 128) :
    w23 x4 x6 (ix2 k (Spec.lo j)) = x4 (ix2 k j) := by
  unfold w23
  exact concatenate_pair_apply_left (t := Cert.KernelIdeal.S256x256) (s₁ := Cert.KernelIdeal.S256x128) (s₂ := Cert.KernelIdeal.S256x128)
    (1 : Fin 2) x4 x6 _ (ix2 k (Spec.lo j)) rfl (ix2 k j) (fun b => by
    match b with
    | ⟨0, _⟩ => rfl
    | ⟨1, _⟩ => rfl)

/-- Column `128 + j` of `[W2 | W3]` is column `j` of `W3`. -/
theorem w23_hi (x4 x6 : (⟨Cert.KernelIdeal.S256x128, .f32⟩ : BufTy).Contents (Elt Ideal)) (k : Fin 256) (j : Fin 128) :
    w23 x4 x6 (ix2 k (Spec.hi j)) = x6 (ix2 k j) := by
  unfold w23
  exact concatenate_pair_apply_right (t := Cert.KernelIdeal.S256x256) (s₁ := Cert.KernelIdeal.S256x128) (s₂ := Cert.KernelIdeal.S256x128)
    (1 : Fin 2) x4 x6 _ (ix2 k (Spec.hi j)) rfl rfl (ix2 k j)
    (fun b hb => by
      match b with
      | ⟨0, _⟩ => rfl
      | ⟨1, _⟩ => exact absurd rfl hb)
    (by show j.val + 128 = 128 + j.val; omega)

/-! ## The reference's composed index functions, by coordinates -/

theorem lidx39 (n : Fin 50000) (j : Fin 128) (k : Fin 256) :
    Cert.ReferenceIdeal.Read.lidx_main_v39 (ix2 n j) k = ix2 n k := by
  funext a; match a with | ⟨0, _⟩ => rfl | ⟨1, _⟩ => rfl
theorem ridx39 (n : Fin 50000) (j : Fin 128) (k : Fin 256) :
    Cert.ReferenceIdeal.Read.ridx_main_v39 (ix2 n j) k = ix2 k j := by
  funext a; match a with | ⟨0, _⟩ => rfl | ⟨1, _⟩ => rfl
theorem lidx60 (n : Fin 50000) (j : Fin 128) (k : Fin 256) :
    Cert.ReferenceIdeal.Read.lidx_main_v60 (ix2 n j) k = ix2 n k := by
  funext a; match a with | ⟨0, _⟩ => rfl | ⟨1, _⟩ => rfl
theorem ridx60 (n : Fin 50000) (j : Fin 128) (k : Fin 256) :
    Cert.ReferenceIdeal.Read.ridx_main_v60 (ix2 n j) k = ix2 k j := by
  funext a; match a with | ⟨0, _⟩ => rfl | ⟨1, _⟩ => rfl
theorem idx3637 (n : Fin 50000) (k : Fin 256) :
    Cert.ReferenceIdeal.Read.idx_main_v36 (Cert.ReferenceIdeal.Read.idx_main_v37 (ix2 n k)) = ix1 n := by
  funext a; match a with | ⟨0, _⟩ => rfl
theorem idx5758 (n : Fin 50000) (k : Fin 256) :
    Cert.ReferenceIdeal.Read.idx_main_v57 (Cert.ReferenceIdeal.Read.idx_main_v58 (ix2 n k)) = ix1 n := by
  funext a; match a with | ⟨0, _⟩ => rfl

/-! ## The product with `[W2 | W3]`, column by column -/

/-- Column `j` of the kernel's product is column `j` of the reference's product with `W2`. -/
theorem x23_lo (x0 : (⟨Cert.KernelIdeal.S50000x256, .f32⟩ : BufTy).Contents (Elt Ideal)) (x2 : (⟨Cert.KernelIdeal.S256x256, .f32⟩ : BufTy).Contents (Elt Ideal))
    (x3 : (⟨Cert.KernelIdeal.S256, .f32⟩ : BufTy).Contents (Elt Ideal)) (x4 x6 : (⟨Cert.KernelIdeal.S256x128, .f32⟩ : BufTy).Contents (Elt Ideal))
    (x9 x10 : (⟨Cert.KernelIdeal.S800000, .i32⟩ : BufTy).Contents (Elt Ideal)) (n : Fin 50000) (j : Fin 128) :
    x23 x0 x2 x3 x4 x6 x9 x10 (ix2 n (Spec.lo j)) = Cert.ReferenceIdeal.Read.val_main_v39 (F := Ideal) x0 x2 x3 x4 x9 x10 (ix2 n j) := by
  unfold x23
  rw [Spec.scaleMatmul_ix2, Cert.ReferenceIdeal.Read.val_main_v39_apply]
  unfold Spec.scaleMatmulAt
  refine Finset.sum_congr rfl fun k _ => ?_
  rw [w23_lo, asCol_apply, hid_eq, normOf_eq_v10, lidx39, ridx39,
    Cert.ReferenceIdeal.Read.val_main_v38_apply, Cert.ReferenceIdeal.Read.val_main_v37_apply,
    Cert.ReferenceIdeal.Read.val_main_v36_apply, idx3637]
  rfl

/-- Column `128 + j` of the kernel's product is column `j` of the reference's product with `W3`. -/
theorem x23_hi (x0 : (⟨Cert.KernelIdeal.S50000x256, .f32⟩ : BufTy).Contents (Elt Ideal)) (x2 : (⟨Cert.KernelIdeal.S256x256, .f32⟩ : BufTy).Contents (Elt Ideal))
    (x3 : (⟨Cert.KernelIdeal.S256, .f32⟩ : BufTy).Contents (Elt Ideal)) (x4 x6 : (⟨Cert.KernelIdeal.S256x128, .f32⟩ : BufTy).Contents (Elt Ideal))
    (x9 x10 : (⟨Cert.KernelIdeal.S800000, .i32⟩ : BufTy).Contents (Elt Ideal)) (n : Fin 50000) (j : Fin 128) :
    x23 x0 x2 x3 x4 x6 x9 x10 (ix2 n (Spec.hi j)) = Cert.ReferenceIdeal.Read.val_main_v60 (F := Ideal) x0 x2 x3 x6 x9 x10 (ix2 n j) := by
  unfold x23
  rw [Spec.scaleMatmul_ix2, Cert.ReferenceIdeal.Read.val_main_v60_apply]
  unfold Spec.scaleMatmulAt
  refine Finset.sum_congr rfl fun k _ => ?_
  rw [w23_hi, asCol_apply, hid_eq, normOf_eq_v10, lidx60, ridx60,
    Cert.ReferenceIdeal.Read.val_main_v59_apply, Cert.ReferenceIdeal.Read.val_main_v58_apply,
    Cert.ReferenceIdeal.Read.val_main_v57_apply, idx5758]
  rfl

/-! ## The aggregation over the edges, column by column -/

theorem kscat256 : Cert.KernelIdeal.scatter_S50000x256_S800000x1_S800000x256_1_0_0_1
    = Cert.RowOps.rowScatter 50000 800000 256 Cert.KernelIdeal.scatter_S50000x256_S800000x1_S800000x256_1_0_0_1.wf := rfl
theorem kgath256 : Cert.KernelIdeal.gather_S50000x256_S800000x1_S800000x256_1_0_n_n_0_1_1256
    = Cert.RowOps.rowGather 50000 800000 256 Cert.KernelIdeal.gather_S50000x256_S800000x1_S800000x256_1_0_n_n_0_1_1256.wf := rfl
theorem rscat128 : Cert.ReferenceIdeal.scatter_S50000x128_S800000x1_S800000x128_1_0_0_1
    = Cert.RowOps.rowScatter 50000 800000 128 Cert.ReferenceIdeal.scatter_S50000x128_S800000x1_S800000x128_1_0_0_1.wf := rfl
theorem rgath128 : Cert.ReferenceIdeal.gather_S50000x128_S800000x1_S800000x128_1_0_n_n_0_1_1128
    = Cert.RowOps.rowGather 50000 800000 128 Cert.ReferenceIdeal.gather_S50000x128_S800000x1_S800000x128_1_0_n_n_0_1_1128.wf := rfl

/-- The wrapped source indices are the reference's (first branch). -/
theorem wrap_eq45 (x9 : (⟨Cert.KernelIdeal.S800000, .i32⟩ : BufTy).Contents (Elt Ideal)) :
    wrapIdx x9 = Cert.ReferenceIdeal.Read.val_main_v45 (F := Ideal) x9 := rfl
/-- The wrapped source indices are the reference's (second branch). -/
theorem wrap_eq66 (x9 : (⟨Cert.KernelIdeal.S800000, .i32⟩ : BufTy).Contents (Elt Ideal)) :
    wrapIdx x9 = Cert.ReferenceIdeal.Read.val_main_v66 (F := Ideal) x9 := rfl

/-- At the exact instance the accumulating scatter is the exact sum. -/
theorem hostSA_eq {s si u : Shape} {w : Nat} {φ : FTy} (d : ScatterDims s si u) (x : FVec Ideal s φ) (idx : IVec si w) (upd : FVec Ideal u φ) :
    Host.scatterAdd d x idx upd = Ideal.hostScatterAdd d x idx upd := rfl

/-- The destination indices as the scatter reads them are the reference's (first branch). -/
theorem dst_eq48 (x10 : (⟨Cert.KernelIdeal.S800000, .i32⟩ : BufTy).Contents (Elt Ideal)) :
    broadcastInDim Cert.KernelIdeal.S800000x1 ![0] Cert.KernelIdeal.Facts₀.bcast_S800000_S800000x1_0 x10
      = Cert.ReferenceIdeal.Read.val_main_v48 (F := Ideal) x10 := rfl
/-- The destination indices as the scatter reads them are the reference's (second branch). -/
theorem dst_eq69 (x10 : (⟨Cert.KernelIdeal.S800000, .i32⟩ : BufTy).Contents (Elt Ideal)) :
    broadcastInDim Cert.KernelIdeal.S800000x1 ![0] Cert.KernelIdeal.Facts₀.bcast_S800000_S800000x1_0 x10
      = Cert.ReferenceIdeal.Read.val_main_v69 (F := Ideal) x10 := rfl

/-- The kernel's zero array in any column is the reference's zero array (first branch). -/
theorem zeros_cols47 (f : Fin 128 → Fin 256) (n : Fin 50000) (j : Fin 128) :
    broadcastInDim Cert.KernelIdeal.S50000x256 ![] Cert.KernelIdeal.Facts₀.bcast_S_S50000x256
        (constant (F := Ideal) Cert.KernelIdeal.S_ .f32 0x00000000#32) (ix2 n (f j))
      = Cert.ReferenceIdeal.Read.val_main_v47 (F := Ideal) (ix2 n j) := by
  rw [Cert.ReferenceIdeal.Read.val_main_v47_apply, Cert.ReferenceIdeal.Read.val_main_cst_10_apply]
  exact broadcastInDim_apply _ _ _ _ (fun a => a.elim0) (fun a => a.elim0)
/-- The kernel's zero array in any column is the reference's zero array (second branch). -/
theorem zeros_cols68 (f : Fin 128 → Fin 256) (n : Fin 50000) (j : Fin 128) :
    broadcastInDim Cert.KernelIdeal.S50000x256 ![] Cert.KernelIdeal.Facts₀.bcast_S_S50000x256
        (constant (F := Ideal) Cert.KernelIdeal.S_ .f32 0x00000000#32) (ix2 n (f j))
      = Cert.ReferenceIdeal.Read.val_main_v68 (F := Ideal) (ix2 n j) := by
  rw [Cert.ReferenceIdeal.Read.val_main_v68_apply, Cert.ReferenceIdeal.Read.val_main_cst_13_apply]
  exact broadcastInDim_apply _ _ _ _ (fun a => a.elim0) (fun a => a.elim0)

/-- The left half of the kernel's aggregated columns is the reference's aggregation of the `W2` product. -/
theorem aggregate_lo (x0 : (⟨Cert.KernelIdeal.S50000x256, .f32⟩ : BufTy).Contents (Elt Ideal)) (x2 : (⟨Cert.KernelIdeal.S256x256, .f32⟩ : BufTy).Contents (Elt Ideal))
    (x3 : (⟨Cert.KernelIdeal.S256, .f32⟩ : BufTy).Contents (Elt Ideal)) (x4 x6 : (⟨Cert.KernelIdeal.S256x128, .f32⟩ : BufTy).Contents (Elt Ideal))
    (x9 x10 : (⟨Cert.KernelIdeal.S800000, .i32⟩ : BufTy).Contents (Elt Ideal)) (n : Fin 50000) (j : Fin 128) :
    aggregate (x23 x0 x2 x3 x4 x6 x9 x10) x9 x10 (ix2 n (Spec.lo j))
      = Cert.ReferenceIdeal.Read.val_main_v49 (F := Ideal) x0 x2 x3 x4 x9 x10 (ix2 n j) := by
  unfold aggregate Cert.ReferenceIdeal.Read.val_main_v49 Cert.ReferenceIdeal.Read.val_main_v46
  rw [kscat256, kgath256, rscat128, rgath128, wrap_eq45, dst_eq48, hostSA_eq, hostSA_eq]
  exact Cert.RowOps.scatterAdd_gather_cols (N := 50000) (E := 800000) (C := 256) (C' := 128) (by decide) Spec.lo _ _ _ _
    (x23 x0 x2 x3 x4 x6 x9 x10) _ (Cert.ReferenceIdeal.Read.val_main_v39 (F := Ideal) x0 x2 x3 x4 x9 x10) _ _ _
    (fun n j => x23_lo x0 x2 x3 x4 x6 x9 x10 n j) (fun n j => zeros_cols47 Spec.lo n j) n j

/-- The right half of the kernel's aggregated columns is the reference's aggregation of the `W3` product. -/
theorem aggregate_hi (x0 : (⟨Cert.KernelIdeal.S50000x256, .f32⟩ : BufTy).Contents (Elt Ideal)) (x2 : (⟨Cert.KernelIdeal.S256x256, .f32⟩ : BufTy).Contents (Elt Ideal))
    (x3 : (⟨Cert.KernelIdeal.S256, .f32⟩ : BufTy).Contents (Elt Ideal)) (x4 x6 : (⟨Cert.KernelIdeal.S256x128, .f32⟩ : BufTy).Contents (Elt Ideal))
    (x9 x10 : (⟨Cert.KernelIdeal.S800000, .i32⟩ : BufTy).Contents (Elt Ideal)) (n : Fin 50000) (j : Fin 128) :
    aggregate (x23 x0 x2 x3 x4 x6 x9 x10) x9 x10 (ix2 n (Spec.hi j))
      = Cert.ReferenceIdeal.Read.val_main_v70 (F := Ideal) x0 x2 x3 x6 x9 x10 (ix2 n j) := by
  unfold aggregate Cert.ReferenceIdeal.Read.val_main_v70 Cert.ReferenceIdeal.Read.val_main_v67
  rw [kscat256, kgath256, rscat128, rgath128, wrap_eq66, dst_eq69, hostSA_eq, hostSA_eq]
  exact Cert.RowOps.scatterAdd_gather_cols (N := 50000) (E := 800000) (C := 256) (C' := 128) (by decide) Spec.hi _ _ _ _
    (x23 x0 x2 x3 x4 x6 x9 x10) _ (Cert.ReferenceIdeal.Read.val_main_v60 (F := Ideal) x0 x2 x3 x6 x9 x10) _ _ _
    (fun n j => x23_hi x0 x2 x3 x4 x6 x9 x10 n j) (fun n j => zeros_cols68 Spec.hi n j) n j

/-! ## The remaining index functions of the reference, by coordinates -/

theorem idx5051 (n : Fin 50000) (j : Fin 128) :
    Cert.ReferenceIdeal.Read.idx_main_v50 (Cert.ReferenceIdeal.Read.idx_main_v51 (ix2 n j)) = ix1 n := by
  funext a; match a with | ⟨0, _⟩ => rfl
theorem idx7172 (n : Fin 50000) (j : Fin 128) :
    Cert.ReferenceIdeal.Read.idx_main_v71 (Cert.ReferenceIdeal.Read.idx_main_v72 (ix2 n j)) = ix1 n := by
  funext a; match a with | ⟨0, _⟩ => rfl
theorem idx5354 (n : Fin 50000) (j : Fin 128) :
    Cert.ReferenceIdeal.Read.idx_main_v53 (Cert.ReferenceIdeal.Read.idx_main_v54 (ix2 n j)) = ix1 j := by
  funext a; match a with | ⟨0, _⟩ => rfl
theorem idx7475 (n : Fin 50000) (j : Fin 128) :
    Cert.ReferenceIdeal.Read.idx_main_v74 (Cert.ReferenceIdeal.Read.idx_main_v75 (ix2 n j)) = ix1 j := by
  funext a; match a with | ⟨0, _⟩ => rfl

end Zed

/-- The sampled latent. -/
theorem zed_eq (x0 : (⟨Cert.KernelIdeal.S50000x256, .f32⟩ : BufTy).Contents (Elt Ideal)) (x1 : (⟨Cert.KernelIdeal.S50000x128, .f32⟩ : BufTy).Contents (Elt Ideal)) (x2 : (⟨Cert.KernelIdeal.S256x256, .f32⟩ : BufTy).Contents (Elt Ideal))
    (x3 : (⟨Cert.KernelIdeal.S256, .f32⟩ : BufTy).Contents (Elt Ideal)) (x4 : (⟨Cert.KernelIdeal.S256x128, .f32⟩ : BufTy).Contents (Elt Ideal)) (x5 : (⟨Cert.KernelIdeal.S128, .f32⟩ : BufTy).Contents (Elt Ideal))
    (x6 : (⟨Cert.KernelIdeal.S256x128, .f32⟩ : BufTy).Contents (Elt Ideal)) (x7 : (⟨Cert.KernelIdeal.S128, .f32⟩ : BufTy).Contents (Elt Ideal)) (x9 x10 : (⟨Cert.KernelIdeal.S800000, .i32⟩ : BufTy).Contents (Elt Ideal)) :
    zed x0 x1 x2 x3 x4 x5 x6 x7 x9 x10 = Cert.ReferenceIdeal.Read.val_main_v79 (F := Ideal) x0 x1 x2 x3 x4 x5 x6 x7 x9 x10 := by
  funext i
  obtain ⟨n, j, rfl⟩ : ∃ (n : Fin 50000) (j : Fin 128), i = ix2 n j := ⟨i 0, i 1, eq_ix2 i⟩
  unfold zed
  rw [Spec.reparam_ix2]
  unfold Spec.reparamAt
  rw [Zed.aggregate_lo, Zed.aggregate_hi, Zed.asCol_apply, Zed.asRow128_apply, Zed.asRow128_apply, normOf_eq_v14,
    Cert.ReferenceIdeal.Read.val_main_v79_apply, Cert.ReferenceIdeal.Read.val_main_v56_apply,
    Cert.ReferenceIdeal.Read.val_main_v55_apply, Cert.ReferenceIdeal.Read.val_main_v52_apply,
    Cert.ReferenceIdeal.Read.val_main_v54_apply, Cert.ReferenceIdeal.Read.val_main_v53_apply,
    Cert.ReferenceIdeal.Read.val_main_v51_apply, Cert.ReferenceIdeal.Read.val_main_v50_apply,
    Cert.ReferenceIdeal.Read.val_main_v78_apply, Cert.ReferenceIdeal.Read.val_main_v77_apply,
    Cert.ReferenceIdeal.Read.val_main_v76_apply, Cert.ReferenceIdeal.Read.val_main_v73_apply,
    Cert.ReferenceIdeal.Read.val_main_v75_apply, Cert.ReferenceIdeal.Read.val_main_v74_apply,
    Cert.ReferenceIdeal.Read.val_main_v72_apply, Cert.ReferenceIdeal.Read.val_main_v71_apply,
    Zed.idx5051, Zed.idx5354, Zed.idx7172, Zed.idx7475,
    Cert.ReferenceIdeal.Read.val_main_call1_v0_apply, Cert.ReferenceIdeal.Read.val_main_call1_cst_apply,
    Ideal.ofBits_def, Ideal.ofBits_zero_f32]
  simp only [Ideal.addf_def, Ideal.mulf_def, Ideal.maximumf_def, Ideal.hostUnary_exp_def]

end Cert.Bridge

end
-- ==== Proof.lean ====
/-
  The certificate's claims, assembled.

  The kernel program runs five regions among host operations; the reference program is host operations only.
  Frames: the two kernel programs' frames are the frame certificates over their five regions; the reference's frame is
  its run with the results dropped. The idealized kernel is the kernel's own text read on the extended reals (no
  rewrite was applied), so `preserves` is trivial.
  Values: at the end of the kernel program's run the three result arrays hold the stage values `KVal.zed`, `KVal.hid`,
  `KVal.proj` of the argument arrays (the run with its results named, read back through the segments: FoldHid,
  FoldZed over the regions' whole-array functions Region0..4); the reference's run ends with its stages
  `val_main_v79`, `val_main_v35`, `val_main_v81` of its argument arrays; and the stage values agree on the extended
  reals (BridgeHid, BridgeZed): the same degree factors and edge aggregation, the scaled matrix products as sums over the
  contracted axis, the product with `[W2 | W3]` column by column the products with `W2` and `W3`, the aggregation acting
  on each column by itself.
-/
import proofs.«108580_j23536420782574_1_alg».proof.Defs
import proofs.«108580_j23536420782574_1_alg».proof.Proof.Gen.Kernel
import proofs.«108580_j23536420782574_1_alg».proof.Proof.KernelFrame
import proofs.«108580_j23536420782574_1_alg».proof.Proof.Gen.KernelIdeal
import proofs.«108580_j23536420782574_1_alg».proof.Proof.KernelIdealFrame
import proofs.«108580_j23536420782574_1_alg».proof.Proof.RunValue
import proofs.«108580_j23536420782574_1_alg».proof.Proof.FoldHid
import proofs.«108580_j23536420782574_1_alg».proof.Proof.FoldZed
import proofs.«108580_j23536420782574_1_alg».proof.Proof.BridgeHid
import proofs.«108580_j23536420782574_1_alg».proof.Proof.BridgeZed
import proofs.«108580_j23536420782574_1_alg».proof.Proof.Gen.ReferenceIdeal
import proofs.«108580_j23536420782574_1_alg».proof.Proof.Gen.ReferenceIdeal.Run
import proofs.«108580_j23536420782574_1_alg».proof.Proof.Gen.ReferenceIdeal.Read
import proofs.«108580_j23536420782574_1_alg».proof.Proof.Gen.Pre_finite_inputs

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end, from memories agreeing on the arguments, with the same three arrays: the kernel's stage
    values of the arguments. -/
theorem algebraic : Cert.algebraic_KernelIdeal_ReferenceIdeal := by
  intro m ρ m' ρ' _ hagree
  refine ⟨fun c => Cert.KernelIdeal.KVal.zed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.KVal.hid (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.KVal.proj (m ((c.tc : Thread Cert.KernelIdeal.nD Cert.KernelIdeal.τ).loc Cert.KernelIdeal.main_arg0)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.W10_v44 m ρ c), (h c).2.1.trans (Cert.KernelIdeal.Fold.W10_v31 m ρ c),
        (h c).2.2.1.trans (Cert.KernelIdeal.Fold.W10_v47 m ρ c), (h c).2.2.2⟩)
      (Cert.KernelIdeal.Gen.run_value (F := Ideal) m ρ)
  · refine (θ_run Cert.ReferenceIdeal.defs _ _).mono (fun r h c => ?_) (Cert.ReferenceIdeal.Value.run (F := Ideal) m' ρ')
    obtain ⟨h0, h1, h2, hrest⟩ := h c
    obtain ⟨e0, e1, e2, e3, e4, e5, e6, e7, e8, e9, e10⟩ := hagree c
    refine ⟨?_, ?_, ?_, hrest⟩
    · rw [h0, Cert.ReferenceIdeal.Read.val_main_v79_eq, e0, e1, e2, e3, e4, e5, e6, e7, e9, e10]
      exact (Cert.Bridge.zed_eq _ _ _ _ _ _ _ _ _ _).symm
    · refine (h1.trans (Cert.ReferenceIdeal.Read.val_main_v35_eq _ _ _ _ _)).trans ?_
      rw [e0, e2, e3, e9, e10]
      exact (Cert.Bridge.hid_eq _ _ _ _ _).symm
    · refine (h2.trans (Cert.ReferenceIdeal.Read.val_main_v81_eq _ _)).trans ?_
      rw [e0, e8]
      exact (Cert.Bridge.proj_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
